-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S64x1024 : Shape := ⟨2, ![64, 1024]⟩
abbrev S64 : Shape := ⟨1, ![64]⟩
abbrev S65536x1024 : Shape := ⟨2, ![65536, 1024]⟩
abbrev S65536 : Shape := ⟨1, ![65536]⟩
abbrev S64x128 : Shape := ⟨2, ![64, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S65536x1024 : S_.BroadcastsInDim S65536x1024 (![] : Fin 0 → Fin S65536x1024.rank)
  reducesTo_S65536x1024_S_d0_1 : S65536x1024.ReducesTo [0, 1] S_
  bcast_S_S65536 : S_.BroadcastsInDim S65536 (![] : Fin 0 → Fin S65536.rank)
  reducesTo_S65536_S_d0 : S65536.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg6 : IVec S64x1024 32) (main_v30 : IVec S_ 1) (main_v32 : IVec S64x1024 1) (main_c_12 : IVec S_ 32) : IVec S_ 1 :=
  let main_v33 : IVec S64x1024 32 := broadcastInDim S64x1024 ![] bcast_S_S64x1024 main_c_12
  let main_v34 : IVec S64x1024 1 := cmpi .slt main_arg6 main_v33
  let main_v35 : IVec S64x1024 1 := andi main_v32 main_v34
  let main_c_13 : IVec S_ 1 := constantI S_ 1 1#1
  let main_v36 : IVec S_ 1 := (fun x v => Host.reduce IntOp.andi x v reducesTo_S64x1024_S_d0_1 h_S_) main_v35 main_c_13
  let main_v37 : IVec S_ 1 := andi main_v30 main_v36
  main_v37

def fn_part1 {F : FTy → Type} [FloatOps F] (main_arg4 : FVec F S65536 .f32) (main_arg5 : IVec S64x128 32) (main_arg6 : IVec S64x1024 32) (main_v13 : IVec S_ 1) (main_v16 : IVec S65536x1024 1) : IVec S_ 1 :=
  let main_c_5 : IVec S_ 1 := constantI S_ 1 1#1
  let main_v17 : IVec S_ 1 := (fun x v => Host.reduce IntOp.andi x v reducesTo_S65536x1024_S_d0_1 h_S_) main_v16 main_c_5
  let main_v18 : IVec S_ 1 := andi main_v13 main_v17
  let main_v19 : FVec F S65536 .f32 := Host.absf main_arg4
  let main_cst_6 : FVec F S_ .f32 := constant S_ .f32 0x7F800000#32
  let main_v20 : FVec F S65536 .f32 := broadcastInDim S65536 ![] bcast_S_S65536 main_cst_6
  let main_v21 : IVec S65536 1 := cmpf .olt main_v19 main_v20
  let main_c_7 : IVec S_ 1 := constantI S_ 1 1#1
  let main_v22 : IVec S_ 1 := (fun x v => Host.reduce IntOp.andi x v reducesTo_S65536_S_d0 h_S_) main_v21 main_c_7
  let main_v23 : IVec S_ 1 := andi main_v18 main_v22
  let main_c_8 : IVec S_ 32 := constantI S_ 32 4294959104#32
  let main_v24 : IVec S64x128 32 := broadcastInDim S64x128 ![] bcast_S_S64x128 main_c_8
  let main_v25 : IVec S64x128 1 := cmpi .sge main_arg5 main_v24
  let main_c_9 : IVec S_ 32 := constantI S_ 32 8192#32
  let main_v26 : IVec S64x128 32 := broadcastInDim S64x128 ![] bcast_S_S64x128 main_c_9
  let main_v27 : IVec S64x128 1 := cmpi .slt main_arg5 main_v26
  let main_v28 : IVec S64x128 1 := andi main_v25 main_v27
  let main_c_10 : IVec S_ 1 := constantI S_ 1 1#1
  let main_v29 : IVec S_ 1 := (fun x v => Host.reduce IntOp.andi x v reducesTo_S64x128_S_d0_1 h_S_) main_v28 main_c_10
  let main_v30 : IVec S_ 1 := andi main_v23 main_v29
  let main_c_11 : IVec S_ 32 := constantI S_ 32 4294901760#32
  let main_v31 : IVec S64x1024 32 := broadcastInDim S64x1024 ![] bcast_S_S64x1024 main_c_11
  let main_v32 : IVec S64x1024 1 := cmpi .sge main_arg6 main_v31
  let main_c_12 : IVec S_ 32 := constantI S_ 32 65536#32
  fn_part2 (F := F) main_arg6 main_v30 main_v32 main_c_12

def fn {F : FTy → Type} [FloatOps F] (main_arg0 : FVec F S8192x1024 .f32) (main_arg1 : FVec F S64x1024 .f32) (main_arg2 : FVec F S64 .f32) (main_arg3 : FVec F S65536x1024 .f32) (main_arg4 : FVec F S65536 .f32) (main_arg5 : IVec S64x128 32) (main_arg6 : IVec S64x1024 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S65536x1024 .f32 := Host.absf main_arg3
  let main_cst_4 : FVec F S_ .f32 := constant S_ .f32 0x7F800000#32
  let main_v15 : FVec F S65536x1024 .f32 := broadcastInDim S65536x1024 ![] bcast_S_S65536x1024 main_cst_4
  let main_v16 : IVec S65536x1024 1 := cmpf .olt main_v14 main_v15
  fn_part1 (F := F) main_arg4 main_arg5 main_arg6 main_v13 main_v16
-- ==== Kernel.lean ====
abbrev S8192x1024 : Shape := ⟨2, ![8192, 1024]⟩
abbrev S64x1024 : Shape := ⟨2, ![64, 1024]⟩
abbrev S64 : Shape := ⟨1, ![64]⟩
abbrev S65536x1024 : Shape := ⟨2, ![65536, 1024]⟩
abbrev S65536 : Shape := ⟨1, ![65536]⟩
abbrev S64x128 : Shape := ⟨2, ![64, 128]⟩
abbrev S1x64 : Shape := ⟨2, ![1, 64]⟩
abbrev S8192x64 : Shape := ⟨2, ![8192, 64]⟩
abbrev S1024x1024 : Shape := ⟨2, ![1024, 1024]⟩
abbrev S1024x64 : Shape := ⟨2, ![1024, 64]⟩
abbrev S_ : Shape := ⟨0, ![]⟩
abbrev S64x128x1 : Shape := ⟨3, ![64, 128, 1]⟩
abbrev S1 : Shape := ⟨1, ![1]⟩
abbrev S1x1x1 : Shape := ⟨3, ![1, 1, 1]⟩
abbrev S64x128x1024 : Shape := ⟨3, ![64, 128, 1024]⟩
abbrev S64x1024x1 : Shape := ⟨3, ![64, 1024, 1]⟩
abbrev S64x1024x1024 : Shape := ⟨3, ![64, 1024, 1024]⟩
abbrev S64x1x1024 : Shape := ⟨3, ![64, 1, 1024]⟩
abbrev S1x128x1024 : Shape := ⟨3, ![1, 128, 1024]⟩
abbrev S1x1024x1024 : Shape := ⟨3, ![1, 1024, 1024]⟩
abbrev S1x1x1024 : Shape := ⟨3, ![1, 1, 1024]⟩
abbrev S128x1024 : Shape := ⟨2, ![128, 1024]⟩
abbrev S1x1024 : Shape := ⟨2, ![1, 1024]⟩

abbrev nBuf : Space → Nat
  | .hbm => 79
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S64x1024, .f32⟩
  | .hbm, ⟨2, _⟩ => ⟨S64, .f32⟩
  | .hbm, ⟨3, _⟩ => ⟨S65536x1024, .f32⟩
  | .hbm, ⟨4, _⟩ => ⟨S65536, .f32⟩
  | .hbm, ⟨5, _⟩ => ⟨S64x128, .i32⟩
  | .hbm, ⟨6, _⟩ => ⟨S64x1024, .i32⟩
  | .hbm, ⟨7, _⟩ => ⟨S1x64, .f32⟩
  | .hbm, ⟨8, _⟩ => ⟨S8192x64, .f32⟩
  | .hbm, ⟨9, _⟩ => ⟨S_, .i32⟩
  | .hbm, ⟨10, _⟩ => ⟨S64x128, .i32⟩
  | .hbm, ⟨11, _⟩ => ⟨S64x128, .i1⟩
  | .hbm, ⟨12, _⟩ => ⟨S_, .i32⟩
  | .hbm, ⟨13, _⟩ => ⟨S64x128, .i32⟩
  | .hbm, ⟨14, _⟩ => ⟨S64x128, .i32⟩
  | .hbm, ⟨15, _⟩ => ⟨S64x128, .i32⟩
  | .hbm, ⟨16, _⟩ => ⟨S64x128x1, .i32⟩
  | .hbm, ⟨17, _⟩ => ⟨S1, .i32⟩
  | .hbm, ⟨18, _⟩ => ⟨S_, .i32⟩
  | .hbm, ⟨19, _⟩ => ⟨S64x128x1, .i32⟩
  | .hbm, ⟨20, _⟩ => ⟨S64x128x1, .i1⟩
  | .hbm, ⟨21, _⟩ => ⟨S1x1x1, .i32⟩
  | .hbm, ⟨22, _⟩ => ⟨S64x128x1, .i32⟩
  | .hbm, ⟨23, _⟩ => ⟨S64x128x1, .i1⟩
  | .hbm, ⟨24, _⟩ => ⟨S64x128x1, .i1⟩
  | .hbm, ⟨25, _⟩ => ⟨S_, .i1⟩
  | .hbm, ⟨26, _⟩ => ⟨S64x128, .i1⟩
  | .hbm, ⟨27, _⟩ => ⟨S64x128x1024, .f32⟩
  | .hbm, ⟨28, _⟩ => ⟨S64x128x1024, .i1⟩
  | .hbm, ⟨29, _⟩ => ⟨S_, .f32⟩
  | .hbm, ⟨30, _⟩ => ⟨S64x128x1024, .f32⟩
  | .hbm, ⟨31, _⟩ => ⟨S64x128x1024, .f32⟩
  | .hbm, ⟨32, _⟩ => ⟨S_, .i32⟩
  | .hbm, ⟨33, _⟩ => ⟨S64x1024, .i32⟩
  | .hbm, ⟨34, _⟩ => ⟨S64x1024, .i1⟩
  | .hbm, ⟨35, _⟩ => ⟨S_, .i32⟩
  | .hbm, ⟨36, _⟩ => ⟨S64x1024, .i32⟩
  | .hbm, ⟨37, _⟩ => ⟨S64x1024, .i32⟩
  | .hbm, ⟨38, _⟩ => ⟨S64x1024, .i32⟩
  | .hbm, ⟨39, _⟩ => ⟨S64x1024x1, .i32⟩
  | .hbm, ⟨40, _⟩ => ⟨S1, .i32⟩
  | .hbm, ⟨41, _⟩ => ⟨S_, .i32⟩
  | .hbm, ⟨42, _⟩ => ⟨S64x1024x1, .i32⟩
  | .hbm, ⟨43, _⟩ => ⟨S64x1024x1, .i1⟩
  | .hbm, ⟨44, _⟩ => ⟨S1x1x1, .i32⟩
  | .hbm, ⟨45, _⟩ => ⟨S64x1024x1, .i32⟩
  | .hbm, ⟨46, _⟩ => ⟨S64x1024x1, .i1⟩
  | .hbm, ⟨47, _⟩ => ⟨S64x1024x1, .i1⟩
  | .hbm, ⟨48, _⟩ => ⟨S_, .i1⟩
  | .hbm, ⟨49, _⟩ => ⟨S64x1024, .i1⟩
  | .hbm, ⟨50, _⟩ => ⟨S64x1024x1024, .f32⟩
  | .hbm, ⟨51, _⟩ => ⟨S64x1024x1024, .i1⟩
  | .hbm, ⟨52, _⟩ => ⟨S_, .f32⟩
  | .hbm, ⟨53, _⟩ => ⟨S64x1024x1024, .f32⟩
  | .hbm, ⟨54, _⟩ => ⟨S64x1024x1024, .f32⟩
  | .hbm, ⟨55, _⟩ => ⟨S_, .i32⟩
  | .hbm, ⟨56, _⟩ => ⟨S64x1024, .i32⟩
  | .hbm, ⟨57, _⟩ => ⟨S64x1024, .i1⟩
  | .hbm, ⟨58, _⟩ => ⟨S_, .i32⟩
  | .hbm, ⟨59, _⟩ => ⟨S64x1024, .i32⟩
  | .hbm, ⟨60, _⟩ => ⟨S64x1024, .i32⟩
  | .hbm, ⟨61, _⟩ => ⟨S64x1024, .i32⟩
  | .hbm, ⟨62, _⟩ => ⟨S64x1024x1, .i32⟩
  | .hbm, ⟨63, _⟩ => ⟨S1, .i32⟩
  | .hbm, ⟨64, _⟩ => ⟨S_, .i32⟩
  | .hbm, ⟨65, _⟩ => ⟨S64x1024x1, .i32⟩
  | .hbm, ⟨66, _⟩ => ⟨S64x1024x1, .i1⟩
  | .hbm, ⟨67, _⟩ => ⟨S1x1x1, .i32⟩
  | .hbm, ⟨68, _⟩ => ⟨S64x1024x1, .i32⟩
  | .hbm, ⟨69, _⟩ => ⟨S64x1024x1, .i1⟩
  | .hbm, ⟨70, _⟩ => ⟨S64x1024x1, .i1⟩
  | .hbm, ⟨71, _⟩ => ⟨S_, .i1⟩
  | .hbm, ⟨72, _⟩ => ⟨S64x1024, .i1⟩
  | .hbm, ⟨73, _⟩ => ⟨S64x1024, .f32⟩
  | .hbm, ⟨74, _⟩ => ⟨S_, .f32⟩
  | .hbm, ⟨75, _⟩ => ⟨S64x1024, .f32⟩
  | .hbm, ⟨76, _⟩ => ⟨S64x1024, .f32⟩
  | .hbm, ⟨77, _⟩ => ⟨S64x1x1024, .f32⟩
  | .hbm, ⟨78, _⟩ => ⟨S64x128x1024, .f32⟩
  | .local _ .vmem, ⟨0, _⟩ => ⟨S1024x1024, .f32⟩
  | .local _ .vmem, ⟨1, _⟩ => ⟨S1024x1024, .f32⟩
  | .local _ .vmem, ⟨2, _⟩ => ⟨S64x1024, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S1x128x1024, .f32⟩
  | .local _ .vmem, ⟨7, _⟩ => ⟨S1x128x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x128x1024, .f32⟩
  | .local _ .vmem, ⟨13, _⟩ => ⟨S1x128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v3 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_cst : Ref sig .tc := ⟨.hbm, 74, rfl⟩
abbrev main_call2_v14 : Ref sig .tc := ⟨.hbm, 75, rfl⟩
abbrev main_v4 : Ref sig .tc := ⟨.hbm, 76, rfl⟩
abbrev main_v5 : Ref sig .tc := ⟨.hbm, 77, rfl⟩
abbrev main_v6 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64_S1x64 : S64.ShapeCasts S1x64
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  transposes_S64x1024_p1_0_S1024x64 : S64x1024.Transposes [1, 0] S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S_S64x128x1 : S_.BroadcastsInDim S64x128x1 (![] : Fin 0 → Fin S64x128x1.rank)
  bcast_S1_S1x1x1_2 : S1.BroadcastsInDim S1x1x1 (![2] : Fin 1 → Fin S1x1x1.rank)
  bcast_S1x1x1_S64x128x1_0_1_2 : S1x1x1.BroadcastsInDim S64x128x1 (![0, 1, 2] : Fin 3 → Fin S64x128x1.rank)
  reducesTo_S64x128x1_S64x128_d2 : S64x128x1.ReducesTo [2] S64x128
  h_S_ : 0 < S_.numel
  bcast_S64x128_S64x128x1024_0_1 : S64x128.BroadcastsInDim S64x128x1024 (![0, 1] : Fin 2 → Fin S64x128x1024.rank)
  bcast_S_S64x128x1024 : S_.BroadcastsInDim S64x128x1024 (![] : Fin 0 → Fin S64x128x1024.rank)
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S1x1x1_S64x1024x1_0_1_2 : S1x1x1.BroadcastsInDim S64x1024x1 (![0, 1, 2] : Fin 3 → Fin S64x1024x1.rank)
  reducesTo_S64x1024x1_S64x1024_d2 : S64x1024x1.ReducesTo [2] S64x1024
  bcast_S64x1024_S64x1024x1024_0_1 : S64x1024.BroadcastsInDim S64x1024x1024 (![0, 1] : Fin 2 → Fin S64x1024x1024.rank)
  bcast_S_S64x1024x1024 : S_.BroadcastsInDim S64x1024x1024 (![] : Fin 0 → Fin S64x1024x1024.rank)
  shapeCasts_S64x1024_S64x1x1024 : S64x1024.ShapeCasts S64x1x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S128x1024 : S1x1024.Broadcasts S128x1024
  shapeCasts_S128x1024_S1x128x1024 : S128x1024.ShapeCasts S1x128x1024
  dot_S1024x1024_S1024x64_S1024x64_1_0_0_1_n_n_wf : DotDims.WF S1024x1024 S1024x64 S1024x64 [1] [0] [0] [1] [] []
  gather_S8192x1024_S64x128x1_S64x128x1024_2_0_n_n_0_2_11024_wf : GatherDims.WF S8192x1024 S64x128x1 S64x128x1024 [2] [0] [] [0] [] 2 ![1, 1024]
  gather_S65536x1024_S64x1024x1_S64x1024x1024_2_0_n_n_0_2_11024_wf : GatherDims.WF S65536x1024 S64x1024x1 S64x1024x1024 [2] [0] [] [0] [] 2 ![1, 1024]
  gather_S65536_S64x1024x1_S64x1024_n_0_n_n_0_2_1_wf : GatherDims.WF S65536 S64x1024x1 S64x1024 [] [0] [] [0] [] 2 ![1]
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x1024.size a ≤ S64x128x1024.size a
  hwx1_0 : ∀ i : grid1.Coords, EltTy.bits .f32 = 32 ∨ (Rect.block (s := S64x128x1024) S1x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S64x1024x1024.size a
  hwx1_1 : ∀ i : grid1.Coords, EltTy.bits .f32 = 32 ∨ (Rect.block (s := S64x1024x1024) S1x1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S64x1x1024.size a
  hwx1_2 : ∀ i : grid1.Coords, EltTy.bits .f32 = 32 ∨ (Rect.block (s := S64x1x1024) S1x1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1024.size a ≤ S64x128x1024.size a
  hwx1_3 : ∀ i : grid1.Coords, EltTy.bits .f32 = 32 ∨ (Rect.block (s := S64x128x1024) S1x128x1024.size (cc1_transform_3 i) (hinb1_3 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def gather_S8192x1024_S64x128x1_S64x128x1024_2_0_n_n_0_2_11024 : GatherDims S8192x1024 S64x128x1 S64x128x1024 where
  offsetDims := [2]
  collapsedSliceDims := [0]
  operandBatchingDims := []
  startIndicesBatchingDims := []
  startIndexMap := [0]
  indexVectorDim := 2
  sliceSizes := ![1, 1024]
  wf := gather_S8192x1024_S64x128x1_S64x128x1024_2_0_n_n_0_2_11024_wf
def gather_S65536x1024_S64x1024x1_S64x1024x1024_2_0_n_n_0_2_11024 : GatherDims S65536x1024 S64x1024x1 S64x1024x1024 where
  offsetDims := [2]
  collapsedSliceDims := [0]
  operandBatchingDims := []
  startIndicesBatchingDims := []
  startIndexMap := [0]
  indexVectorDim := 2
  sliceSizes := ![1, 1024]
  wf := gather_S65536x1024_S64x1024x1_S64x1024x1024_2_0_n_n_0_2_11024_wf
def gather_S65536_S64x1024x1_S64x1024_n_0_n_n_0_2_1 : GatherDims S65536 S64x1024x1 S64x1024 where
  offsetDims := []
  collapsedSliceDims := [0]
  operandBatchingDims := []
  startIndicesBatchingDims := []
  startIndexMap := [0]
  indexVectorDim := 2
  sliceSizes := ![1]
  wf := gather_S65536_S64x1024x1_S64x1024_n_0_n_n_0_2_1_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S64x1024 : Shape := ⟨2, ![64, 1024]⟩
abbrev S64 : Shape := ⟨1, ![64]⟩
abbrev S65536x1024 : Shape := ⟨2, ![65536, 1024]⟩
abbrev S65536 : Shape := ⟨1, ![65536]⟩
abbrev S64x128 : Shape := ⟨2, ![64, 128]⟩
abbrev S1024x64 : Shape := ⟨2, ![1024, 64]⟩
abbrev S8192x64 : Shape := ⟨2, ![8192, 64]⟩
abbrev S1x64 : Shape := ⟨2, ![1, 64]⟩
abbrev S_ : Shape := ⟨0, ![]⟩
abbrev S64x128x1 : Shape := ⟨3, ![64, 128, 1]⟩
abbrev S64x128x1024 : Shape := ⟨3, ![64, 128, 1024]⟩
abbrev S64x1024x1 : Shape := ⟨3, ![64, 1024, 1]⟩
abbrev S64x1024x1024 : Shape := ⟨3, ![64, 1024, 1024]⟩
abbrev S64x1x1024 : Shape := ⟨3, ![64, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S64x1024, .f32⟩
  | .hbm, ⟨2, _⟩ => ⟨S64, .f32⟩
  | .hbm, ⟨3, _⟩ => ⟨S65536x1024, .f32⟩
  | .hbm, ⟨4, _⟩ => ⟨S65536, .f32⟩
  | .hbm, ⟨5, _⟩ => ⟨S64x128, .i32⟩
  | .hbm, ⟨6, _⟩ => ⟨S64x1024, .i32⟩
  | .hbm, ⟨7, _⟩ => ⟨S1024x64, .f32⟩
  | .hbm, ⟨8, _⟩ => ⟨S8192x64, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S_, .i32⟩
  | .hbm, ⟨13, _⟩ => ⟨S64x128, .i32⟩
  | .hbm, ⟨14, _⟩ => ⟨S64x128, .i1⟩
  | .hbm, ⟨15, _⟩ => ⟨S_, .i32⟩
  | .hbm, ⟨16, _⟩ => ⟨S64x128, .i32⟩
  | .hbm, ⟨17, _⟩ => ⟨S64x128, .i32⟩
  | .hbm, ⟨18, _⟩ => ⟨S64x128, .i32⟩
  | .hbm, ⟨19, _⟩ => ⟨S64x128x1, .i32⟩
  | .hbm, ⟨20, _⟩ => ⟨S64x128x1024, .f32⟩
  | .hbm, ⟨21, _⟩ => ⟨S_, .i32⟩
  | .hbm, ⟨22, _⟩ => ⟨S64x1024, .i32⟩
  | .hbm, ⟨23, _⟩ => ⟨S64x1024, .i1⟩
  | .hbm, ⟨24, _⟩ => ⟨S_, .i32⟩
  | .hbm, ⟨25, _⟩ => ⟨S64x1024, .i32⟩
  | .hbm, ⟨26, _⟩ => ⟨S64x1024, .i32⟩
  | .hbm, ⟨27, _⟩ => ⟨S64x1024, .i32⟩
  | .hbm, ⟨28, _⟩ => ⟨S64x1024x1, .i32⟩
  | .hbm, ⟨29, _⟩ => ⟨S64x1024x1024, .f32⟩
  | .hbm, ⟨30, _⟩ => ⟨S_, .i32⟩
  | .hbm, ⟨31, _⟩ => ⟨S64x1024, .i32⟩
  | .hbm, ⟨32, _⟩ => ⟨S64x1024, .i1⟩
  | .hbm, ⟨33, _⟩ => ⟨S_, .i32⟩
  | .hbm, ⟨34, _⟩ => ⟨S64x1024, .i32⟩
  | .hbm, ⟨35, _⟩ => ⟨S64x1024, .i32⟩
  | .hbm, ⟨36, _⟩ => ⟨S64x1024, .i32⟩
  | .hbm, ⟨37, _⟩ => ⟨S64x1024x1, .i32⟩
  | .hbm, ⟨38, _⟩ => ⟨S64x1024, .f32⟩
  | .hbm, ⟨39, _⟩ => ⟨S64x128x1024, .f32⟩
  | .hbm, ⟨40, _⟩ => ⟨S64x1x1024, .f32⟩
  | .hbm, ⟨41, _⟩ => ⟨S64x128x1024, .f32⟩
  | .hbm, ⟨42, _⟩ => ⟨S64x128x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  transposes_S64x1024_S1024x64_1_0 : S64x1024.Transposes [1, 0] S1024x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1x1024_S64x128x1024_0_1_2 : S64x1x1024.BroadcastsInDim S64x128x1024 (![0, 1, 2] : Fin 3 → Fin S64x128x1024.rank)
  dot_S8192x1024_S1024x64_S8192x64_1_0_0_1_n_n_wf : DotDims.WF S8192x1024 S1024x64 S8192x64 [1] [0] [0] [1] [] []
  gather_S8192x1024_S64x128x1_S64x128x1024_2_0_n_n_0_2_11024_wf : GatherDims.WF S8192x1024 S64x128x1 S64x128x1024 [2] [0] [] [0] [] 2 ![1, 1024]
  gather_S65536x1024_S64x1024x1_S64x1024x1024_2_0_n_n_0_2_11024_wf : GatherDims.WF S65536x1024 S64x1024x1 S64x1024x1024 [2] [0] [] [0] [] 2 ![1, 1024]
  gather_S65536_S64x1024x1_S64x1024_n_0_n_n_0_2_1_wf : GatherDims.WF S65536 S64x1024x1 S64x1024 [] [0] [] [0] [] 2 ![1]
  dot_S64x128x1024_S64x1024x1024_S64x128x1024_2_2_1_1_0_0_wf : DotDims.WF S64x128x1024 S64x1024x1024 S64x128x1024 [2] [2] [1] [1] [0] [0]

variable [Facts₀]

def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def gather_S8192x1024_S64x128x1_S64x128x1024_2_0_n_n_0_2_11024 : GatherDims S8192x1024 S64x128x1 S64x128x1024 where
  offsetDims := [2]
  collapsedSliceDims := [0]
  operandBatchingDims := []
  startIndicesBatchingDims := []
  startIndexMap := [0]
  indexVectorDim := 2
  sliceSizes := ![1, 1024]
  wf := gather_S8192x1024_S64x128x1_S64x128x1024_2_0_n_n_0_2_11024_wf
def gather_S65536x1024_S64x1024x1_S64x1024x1024_2_0_n_n_0_2_11024 : GatherDims S65536x1024 S64x1024x1 S64x1024x1024 where
  offsetDims := [2]
  collapsedSliceDims := [0]
  operandBatchingDims := []
  startIndicesBatchingDims := []
  startIndexMap := [0]
  indexVectorDim := 2
  sliceSizes := ![1, 1024]
  wf := gather_S65536x1024_S64x1024x1_S64x1024x1024_2_0_n_n_0_2_11024_wf
def gather_S65536_S64x1024x1_S64x1024_n_0_n_n_0_2_1 : GatherDims S65536 S64x1024x1 S64x1024 where
  offsetDims := []
  collapsedSliceDims := [0]
  operandBatchingDims := []
  startIndicesBatchingDims := []
  startIndexMap := [0]
  indexVectorDim := 2
  sliceSizes := ![1]
  wf := gather_S65536_S64x1024x1_S64x1024_n_0_n_n_0_2_1_wf
def dot_S64x128x1024_S64x1024x1024_S64x128x1024_2_2_1_1_0_0 : DotDims S64x128x1024 S64x1024x1024 S64x128x1024 where
  lhsContracting := [2]
  rhsContracting := [2]
  lhsNonContracting := [1]
  rhsNonContracting := [1]
  lhsBatch := [0]
  rhsBatch := [0]
  wf := dot_S64x128x1024_S64x1024x1024_S64x128x1024_2_2_1_1_0_0_wf

class Facts : Prop extends Facts₀ where

variable [Facts]
-- ==== Proof.Payload.lean ====
/-
  The two kernel bodies as arithmetic, read at one element of the block each stores, over the extended reals.

  The class-logit body stores, at row `p` and column `q` of its [1024, 64] block, the inner product of row `p` of its
  [1024, 1024] input block with row `q` of the [64, 1024] weight block, plus entry `q` of the [1, 64] bias row: the narrowing
  of both operands to bf16 is the identity on exact values, the transpose only renames the weight's coordinates, and the
  matrix unit's product into a zero accumulator is the plain sum over the contracted axis.

  The word-logit body does the same on blocks with a leading unit axis: at `(0, r, s)` of its [1, 128, 1024] block it stores
  the inner product of row `r` of the [1, 128, 1024] token block with row `s` of the [1, 1024, 1024] embedding block, plus
  entry `s` of the [1, 1, 1024] bias row.
-/
import proofs.«424581_j28381143892585_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The class-logit product: [1024, 1024] × [1024, 64] -/

theorem lhsA_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhsA_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhsA_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhsA_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The matrix unit's product into a zero accumulator, at `(p, q)`: the sum over the contracted axis. -/
theorem matmulA_apply (a : FVec Ideal S1024x1024 .bf16) (b : FVec Ideal S1024x64 .bf16) (p : Fin 1024) (q : Fin 64) :
    matmul dot_S1024x1024_S1024x64_S1024x64_1_0_0_1_n_n none a b (constant S1024x64 .f32 0x00000000#32) (ix2 p q)
      = ∑ k : Fin 1024, a (ix2 p k) * b (ix2 k q) := by
  refine (Ideal.matmul_constant_zero_apply dot_S1024x1024_S1024x64_S1024x64_1_0_0_1_n_n none a b (ix2 p q)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p q) ((contrEquiv1 dot_S1024x1024_S1024x64_S1024x64_1_0_0_1_n_n 1024 rfl rfl).symm k) = ix2 p k := funext fun a => Fin.ext (by
    match a with
    | ⟨0, _⟩ => exact lhsA_0 _ _
    | ⟨1, _⟩ => exact (lhsA_1 _ _).trans hk)
  have er : dot_S1024x1024_S1024x64_S1024x64_1_0_0_1_n_n.rhsIdx (ix2 p q) ((contrEquiv1 dot_S1024x1024_S1024x64_S1024x64_1_0_0_1_n_n 1024 rfl rfl).symm k) = ix2 k q := funext fun a => Fin.ext (by
    match a with
    | ⟨0, _⟩ => exact (rhsA_0 _ _).trans hk
    | ⟨1, _⟩ => exact rhsA_1 _ _)
  rw [el, er]

/-- THE CLASS-LOGIT BODY AT `(p, q)`: row `p` of the input block against row `q` of the weight block, plus the bias at `q`. -/
theorem cls_apply (x0 : Vec Ideal S1024x1024 .f32) (x1 : Vec Ideal S64x1024 .f32) (x2 : Vec Ideal S1x64 .f32)
    (p : Fin 1024) (q : Fin 64) :
    k0_pay1 (F := Ideal) x0 x1 x2 (ix2 p q) = (∑ k : Fin 1024, x0 (ix2 p k) * x1 (ix2 q k)) + x2 (ix2 (0 : Fin 1) q) := by
  unfold k0_pay1
  dsimp only
  rw [addf_apply, matmulA_apply, broadcastTo_1b_ab_apply, shapeCast_self]
  congr 1
  refine Finset.sum_congr rfl fun k _ => ?_
  rw [transpose_ix2_apply]
  rfl

/-! ## The word-logit product: [128, 1024] × [1024, 1024] -/

theorem lhsB_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhsB_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhsB_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhsB_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The matrix unit's product into a zero accumulator, at `(r, s)`: the sum over the contracted axis. -/
theorem matmulB_apply (a : FVec Ideal S128x1024 .bf16) (b : FVec Ideal S1024x1024 .bf16) (r : Fin 128) (s : Fin 1024) :
    matmul dot_S128x1024_S1024x1024_S128x1024_1_0_0_1_n_n none a b (constant S128x1024 .f32 0x00000000#32) (ix2 r s)
      = ∑ k : Fin 1024, a (ix2 r k) * b (ix2 k s) := by
  refine (Ideal.matmul_constant_zero_apply dot_S128x1024_S1024x1024_S128x1024_1_0_0_1_n_n none a b (ix2 r s)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 r s) ((contrEquiv1 dot_S128x1024_S1024x1024_S128x1024_1_0_0_1_n_n 1024 rfl rfl).symm k) = ix2 r k := funext fun a => Fin.ext (by
    match a with
    | ⟨0, _⟩ => exact lhsB_0 _ _
    | ⟨1, _⟩ => exact (lhsB_1 _ _).trans hk)
  have er : dot_S128x1024_S1024x1024_S128x1024_1_0_0_1_n_n.rhsIdx (ix2 r s) ((contrEquiv1 dot_S128x1024_S1024x1024_S128x1024_1_0_0_1_n_n 1024 rfl rfl).symm k) = ix2 k s := funext fun a => Fin.ext (by
    match a with
    | ⟨0, _⟩ => exact (rhsB_0 _ _).trans hk
    | ⟨1, _⟩ => exact rhsB_1 _ _)
  rw [el, er]

/-- THE WORD-LOGIT BODY AT `(u, r, s)`: row `r` of the token block against row `s` of the embedding block, plus the bias at `s`. -/
theorem words_apply (x0 : Vec Ideal S1x128x1024 .f32) (x3 : Vec Ideal S1x1024x1024 .f32) (x8 : Vec Ideal S1x1x1024 .f32)
    (u : Fin 1) (r : Fin 128) (s : Fin 1024) :
    k1_pay1 (F := Ideal) x0 x3 x8 (ix3 u r s)
      = (∑ k : Fin 1024, x0 (ix3 (0 : Fin 1) r k) * x3 (ix3 (0 : Fin 1) s k)) + x8 (ix3 (0 : Fin 1) (0 : Fin 1) s) := by
  unfold k1_pay1
  dsimp only
  rw [shapeCast_ab_1ab_apply, addf_apply, matmulB_apply, broadcastTo_1b_ab_apply, shapeCast_1ab_ab_apply]
  congr 1
  refine Finset.sum_congr rfl fun k _ => ?_
  rw [transpose_ix2_apply, truncf_apply, truncf_apply, shapeCast_1ab_ab_apply, shapeCast_1ab_ab_apply]

end Cert.KernelIdeal.Body

end
-- ==== Proof.RegionValue.lean ====
/-
  What each of the two pallas_calls leaves in its result array, as one function of the arrays it is entered with, over the
  extended reals.

  The class-logit call walks its 8192 rows in 8 blocks of 1024; at block `t` it reads rows `1024·t …` of the input, the
  whole weight matrix and the whole bias row, and writes rows `1024·t …` of the result. Row `i`, column `j` of the result
  is therefore the inner product of input row `i` with weight row `j`, plus the bias at `j`: every block is the restriction
  of that one function, and the 8 blocks cover the result.

  The word-logit call walks the 64 classes; at class `t` it reads slab `t` of the routed tokens, slab `t` of the class's
  embeddings and slab `t` of its biases, and writes slab `t` of the result. Entry `(c, r, s)` of the result is the inner
  product of token row `(c, r)` with embedding row `(c, s)`, plus the bias at `(c, 0, s)`.
-/
import proofs.«424581_j28381143892585_1_alg».proof.Proof.Gen.KernelIdeal.Frame
import proofs.«424581_j28381143892585_1_alg».proof.Proof.Payload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region

open Cert.KernelIdeal Cert.KernelIdeal.Gen Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The class logits -/

/-- Row `i 0`, column `i 1`: input row against weight row, plus the bias. -/
def clsG (x : S8192x1024.Idx → EReal) (w : S64x1024.Idx → EReal) (b : S1x64.Idx → EReal) : S8192x64.Idx → EReal :=
  fun i => (∑ k : Fin 1024, x (ix2 (⟨(i 0).val, (i 0).isLt⟩ : Fin 8192) k) * w (ix2 (⟨(i 1).val, (i 1).isLt⟩ : Fin 64) k))
    + b (ix2 (0 : Fin 1) (⟨(i 1).val, (i 1).isLt⟩ : Fin 64))

/-- The block indices of the four windows at point `t`: the input and the result move with `t` along the rows, the weight
    and the bias stay. -/
theorem idxA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `clsG` of the arrays as the region finds them. -/
theorem flushedA (c : Dev nD) (t : Fin cfg0.N) :
    (dat0 V c).flushed 3 t = ((cfg0.win 3).blk t).view.read (Elt Ideal) (clsG (V c main_arg0) (V c main_arg1) (V c main_v0)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S64x1024) hz2, View.ld_unit_zero (S := S1x64) hz2]
  obtain ⟨e0, e1, e2, e3, e4, e5, e6, e7⟩ := idxA t
  funext j
  obtain ⟨p, q, rfl⟩ : ∃ (p : Fin 1024) (q : Fin 64), j = ix2 p q := ⟨j 0, j 1, eq_ix2 j⟩
  refine (Body.cls_apply (iblk0 V c 0 t) (iblk0 V c 1 t) (iblk0 V c 2 t) p q).trans ?_
  rw [View.read_apply]
  unfold clsG
  refine congrArg₂ (· + ·) (Finset.sum_congr rfl fun k _ => congrArg₂ (· * ·) ?_ ?_) ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 1024 + 1 * p.val = win0_3.index t (0 : Fin 2) * 1024 + 1 * p.val; rw [e0, e6]
    | ⟨1, _⟩ => show win0_0.index t (1 : Fin 2) * 1024 + 1 * k.val = k.val; rw [e1]; omega
  · show V c main_arg1 (((cfg0.win 1).blk t).view.emb (ix2 q k)) = V c main_arg1 _
    refine congrArg (V c main_arg1) (funext fun a => Fin.ext ?_)
    match a with
    | ⟨0, _⟩ => show win0_1.index t (0 : Fin 2) * 64 + 1 * q.val = win0_3.index t (1 : Fin 2) * 64 + 1 * q.val; rw [e2, e7]
    | ⟨1, _⟩ => show win0_1.index t (1 : Fin 2) * 1024 + 1 * k.val = k.val; rw [e3]; omega
  · show V c main_v0 (((cfg0.win 2).blk t).view.emb (ix2 (0 : Fin 1) q)) = V c main_v0 _
    refine congrArg (V c main_v0) (funext fun a => Fin.ext ?_)
    match a with
    | ⟨0, _⟩ => show win0_2.index t (0 : Fin 2) * 1 + 1 * 0 = 0; rw [e4]
    | ⟨1, _⟩ => show win0_2.index t (1 : Fin 2) * 64 + 1 * q.val = win0_3.index t (1 : Fin 2) * 64 + 1 * q.val; rw [e5, e7]

/-- An index of the result is in point `t`'s block iff each coordinate is in the block's range on its axis. -/
theorem mem_blkA (t : Fin cfg0.N) (i : S8192x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v1).slice (win0_3.rect t)).set ↔ _
  rw [View.set_slice_whole, Rect.mem_set_unit]
  exact Iff.rfl

/-- THE CLASS LOGITS after the region: `clsG` of the arrays the region was entered with. -/
theorem finalA (c : Dev nD) :
    (dat0 V c).arrAt 3 cfg0.N = clsG (V c main_arg0) (V c main_arg1) (V c main_v0) :=
  (dat0 V c).arrAt_eq_of_cover 3 (clsG (V c main_arg0) (V c main_arg1) (V c main_v0)) (fun t _ => flushedA V c t) fun i => by
    have hi0 : (i 0).val < 8192 := (i 0).isLt
    have hi1 : (i 1).val < 64 := (i 1).isLt
    have hN : cfg0.N = 8 := N_0
    let t : Fin cfg0.N := ⟨(i 0).val / 1024, by rw [hN]; omega⟩
    obtain ⟨e0, e1, e2, e3, e4, e5, e6, e7⟩ := idxA t
    have ht : t.val = (i 0).val / 1024 := rfl
    refine ⟨t, flush0_3 t, ?_⟩
    rw [mem_blkA]
    intro a
    match a with
    | ⟨0, _⟩ => show win0_3.index t (0 : Fin 2) * 1024 ≤ (i 0).val ∧ (i 0).val < win0_3.index t (0 : Fin 2) * 1024 + 1024; rw [e6, ht]; omega
    | ⟨1, _⟩ => show win0_3.index t (1 : Fin 2) * 64 ≤ (i 1).val ∧ (i 1).val < win0_3.index t (1 : Fin 2) * 64 + 64; rw [e7]; omega

/-! ## The word logits -/

/-- Entry `(c, r, s)`: token row `(c, r)` against embedding row `(c, s)`, plus the bias at `(c, 0, s)`. -/
def wordsG (D : S64x128x1024.Idx → EReal) (E : S64x1024x1024.Idx → EReal) (B : S64x1x1024.Idx → EReal) : S64x128x1024.Idx → EReal :=
  fun i => (∑ k : Fin 1024, D (ix3 (⟨(i 0).val, (i 0).isLt⟩ : Fin 64) (⟨(i 1).val, (i 1).isLt⟩ : Fin 128) k)
      * E (ix3 (⟨(i 0).val, (i 0).isLt⟩ : Fin 64) (⟨(i 2).val, (i 2).isLt⟩ : Fin 1024) k))
    + B (ix3 (⟨(i 0).val, (i 0).isLt⟩ : Fin 64) (0 : Fin 1) (⟨(i 2).val, (i 2).isLt⟩ : Fin 1024))

/-- The block indices of the four windows at point `t`: all four move with `t` along the class axis and stay on the others. -/
theorem idxB : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

set_option maxHeartbeats 1600000 in
/-- What point `t` writes back is slab `t` of `wordsG` of the arrays as the region finds them. -/
theorem flushedB (c : Dev nD) (t : Fin cfg1.N) :
    (dat1 V c).flushed 3 t = ((cfg1.win 3).blk t).view.read (Elt Ideal) (wordsG (V c main_v2) (V c main_v3) (V c main_v5)) := by
  show (cfg1.win 3).cut (grid1.coords t) ((dat1 V c).after 3 t) = _
  rw [after1_3]
  unfold out1_3
  rw [View.canon_unit_zero hz3]
  simp only [View.ld_unit_zero (S := S1x128x1024) hz3, View.ld_unit_zero (S := S1x1024x1024) hz3, View.ld_unit_zero (S := S1x1x1024) hz3]
  obtain ⟨a0, a1, a2, b0, b1, b2, c0, c1, c2, d0, d1, d2⟩ := idxB t
  funext j
  obtain ⟨u, r, s, rfl⟩ : ∃ (u : Fin 1) (r : Fin 128) (s : Fin 1024), j = ix3 u r s := ⟨j 0, j 1, j 2, eq_ix3 j⟩
  have hu : u.val = 0 := by omega
  refine (Body.words_apply (iblk1 V c 0 t) (iblk1 V c 1 t) (iblk1 V c 2 t) u r s).trans ?_
  rw [View.read_apply]
  unfold wordsG
  refine congrArg₂ (· + ·) (Finset.sum_congr rfl fun k _ => congrArg₂ (· * ·) ?_ ?_) ?_
  · show V c main_v2 (((cfg1.win 0).blk t).view.emb (ix3 (0 : Fin 1) r k)) = V c main_v2 _
    refine congrArg (V c main_v2) (funext fun a => Fin.ext ?_)
    match a with
    | ⟨0, _⟩ => show win1_0.index t (0 : Fin 3) * 1 + 1 * 0 = win1_3.index t (0 : Fin 3) * 1 + 1 * u.val; rw [a0, d0, hu]
    | ⟨1, _⟩ => show win1_0.index t (1 : Fin 3) * 128 + 1 * r.val = win1_3.index t (1 : Fin 3) * 128 + 1 * r.val; rw [a1, d1]
    | ⟨2, _⟩ => show win1_0.index t (2 : Fin 3) * 1024 + 1 * k.val = k.val; rw [a2]; omega
  · show V c main_v3 (((cfg1.win 1).blk t).view.emb (ix3 (0 : Fin 1) s k)) = V c main_v3 _
    refine congrArg (V c main_v3) (funext fun a => Fin.ext ?_)
    match a with
    | ⟨0, _⟩ => show win1_1.index t (0 : Fin 3) * 1 + 1 * 0 = win1_3.index t (0 : Fin 3) * 1 + 1 * u.val; rw [b0, d0, hu]
    | ⟨1, _⟩ => show win1_1.index t (1 : Fin 3) * 1024 + 1 * s.val = win1_3.index t (2 : Fin 3) * 1024 + 1 * s.val; rw [b1, d2]
    | ⟨2, _⟩ => show win1_1.index t (2 : Fin 3) * 1024 + 1 * k.val = k.val; rw [b2]; omega
  · show V c main_v5 (((cfg1.win 2).blk t).view.emb (ix3 (0 : Fin 1) (0 : Fin 1) s)) = V c main_v5 _
    refine congrArg (V c main_v5) (funext fun a => Fin.ext ?_)
    match a with
    | ⟨0, _⟩ => show win1_2.index t (0 : Fin 3) * 1 + 1 * 0 = win1_3.index t (0 : Fin 3) * 1 + 1 * u.val; rw [c0, d0, hu]
    | ⟨1, _⟩ => show win1_2.index t (1 : Fin 3) * 1 + 1 * 0 = 0; rw [c1]
    | ⟨2, _⟩ => show win1_2.index t (2 : Fin 3) * 1024 + 1 * s.val = win1_3.index t (2 : Fin 3) * 1024 + 1 * s.val; rw [c2, d2]

/-- An index of the result is in point `t`'s slab iff each coordinate is in the slab's range on its axis. -/
theorem mem_blkB (t : Fin cfg1.N) (i : S64x128x1024.Idx) :
    i ∈ ((cfg1.win 3).blk t).view.set ↔ ∀ a : Fin 3, win1_3.index t a * S1x128x1024.size a ≤ (i a).val ∧ (i a).val < win1_3.index t a * S1x128x1024.size a + S1x128x1024.size a := by
  show i ∈ ((View.whole main_v6).slice (win1_3.rect t)).set ↔ _
  rw [View.set_slice_whole, Rect.mem_set_unit]
  exact Iff.rfl

/-- THE WORD LOGITS after the region: `wordsG` of the arrays the region was entered with. -/
theorem finalB (c : Dev nD) :
    (dat1 V c).arrAt 3 cfg1.N = wordsG (V c main_v2) (V c main_v3) (V c main_v5) :=
  (dat1 V c).arrAt_eq_of_cover 3 (wordsG (V c main_v2) (V c main_v3) (V c main_v5)) (fun t _ => flushedB V c t) fun i => by
    have hi0 : (i 0).val < 64 := (i 0).isLt
    have hi1 : (i 1).val < 128 := (i 1).isLt
    have hi2 : (i 2).val < 1024 := (i 2).isLt
    have hN : cfg1.N = 64 := N_1
    let t : Fin cfg1.N := ⟨(i 0).val, by rw [hN]; exact hi0⟩
    obtain ⟨a0, a1, a2, b0, b1, b2, c0, c1, c2, d0, d1, d2⟩ := idxB t
    have ht : t.val = (i 0).val := rfl
    refine ⟨t, flush1_3 t, ?_⟩
    rw [mem_blkB]
    intro a
    match a with
    | ⟨0, _⟩ => show win1_3.index t (0 : Fin 3) * 1 ≤ (i 0).val ∧ (i 0).val < win1_3.index t (0 : Fin 3) * 1 + 1; rw [d0, ht]; omega
    | ⟨1, _⟩ => show win1_3.index t (1 : Fin 3) * 128 ≤ (i 1).val ∧ (i 1).val < win1_3.index t (1 : Fin 3) * 128 + 128; rw [d1]; omega
    | ⟨2, _⟩ => show win1_3.index t (2 : Fin 3) * 1024 ≤ (i 2).val ∧ (i 2).val < win1_3.index t (2 : Fin 3) * 1024 + 1024; rw [d2]; omega

end Cert.KernelIdeal.Region

end
-- ==== Proof.LibTakeFill.lean ====
/-
  A gather that fills out-of-range rows, when no row is out of range. `jnp.take(x, idx, axis=0)` lowers to: wrap a
  negative index by adding the extent `N`; test the wrapped index against `[0, N − 1]`; gather the rows (the start index
  clamped); and select, row by row, the gathered row where the test passed and a fill value where it did not. When every
  index word `i` satisfies `−N ≤ i < N` the wrapped index lies in `[0, N − 1]`, the test passes on every row, and the
  select returns the gathered rows: the fill value is never read.
-/
import Idealize.ShloMosaic.PureOps.Vector
import Idealize.ShloMosaic.PureOps.Contract
import Idealize.ShloMosaic.PureOps.ShapeOps
import Idealize.ShloMosaic.Lib.ValueIdx
import Idealize.ShloMosaic.Lib.Pipeline.Value
import Idealize.ShloMosaic.Lib.ReduceAll

noncomputable section

namespace Cert.LibTakeFill

open Idealize.ShloMosaic Idealize.ShloMosaic.ValueIdx

/-- The rank-0 shape. -/
abbrev Sc : Shape := ⟨0, ![]⟩
/-- A vector of `E` words. -/
abbrev V1 (E : Nat) : Shape := ⟨1, ![E]⟩
/-- A column of `E` words. -/
abbrev Col (E : Nat) : Shape := ⟨2, ![E, 1]⟩
/-- The `1 × 1` shape. -/
abbrev One2 : Shape := ⟨2, ![1, 1]⟩

/-- The index vector after the wrap of its negative words (`i < 0 ↦ i + N`), laid out as a column. -/
abbrev wrapCol {E : Nat} (hb0 : Sc.BroadcastsInDim (V1 E) (![] : Fin 0 → Fin 1))
    (hbc : (V1 E).BroadcastsInDim (Col E) (![0] : Fin 1 → Fin 2)) (Nw : BitVec 32) (idx : IVec (V1 E) 32) : IVec (Col E) 32 :=
  broadcastInDim (Col E) (![0] : Fin 1 → Fin 2) hbc
    (select (cmpi .slt idx (broadcastInDim (V1 E) (![] : Fin 0 → Fin 1) hb0 (constantI Sc 32 0#32)))
      (addi idx (broadcastInDim (V1 E) (![] : Fin 0 → Fin 1) hb0 (constantI Sc 32 Nw))) idx)

/-- The word of a natural number below `2³¹` reads, signed, as that number. -/
theorem toInt_ofNat_small (a : ℕ) (ha : a < 2 ^ 31) : (BitVec.ofNat 32 a).toInt = (a : ℤ) := by
  rw [BitVec.toInt_ofNat']
  exact Int.bmod_eq_of_le_mul_two (by omega) (by omega)

/-- One word: with `−N ≤ i < N`, the wrapped word `i'` (`i + N` when `i < 0`, else `i`) passes both tests
    `i' ≥ 0` and `i' ≤ N − 1` (signed compares on 32-bit words; `N` far below `2³¹`). -/
theorem wrap_word_in_range (N : Nat) (hN0 : 0 < N) (hN : N < 2 ^ 30) (i : BitVec 32)
    (hi : -(N : ℤ) ≤ i.toInt ∧ i.toInt < (N : ℤ)) :
    IntOp.andi
      (IntOp.cmpi .sge (Scalar.select (IntOp.cmpi .slt i 0#32) (IntOp.addi i (BitVec.ofNat 32 N)) i) 0#32)
      (IntOp.cmpi .sle (Scalar.select (IntOp.cmpi .slt i 0#32) (IntOp.addi i (BitVec.ofNat 32 N)) i) (BitVec.ofNat 32 (N - 1)))
      = 1#1 := by
  obtain ⟨h1, h2⟩ := hi
  have hNi : (BitVec.ofNat 32 N).toInt = (N : ℤ) := toInt_ofNat_small N (by omega)
  have hN1 : (BitVec.ofNat 32 (N - 1)).toInt = ((N - 1 : ℕ) : ℤ) := toInt_ofNat_small (N - 1) (by omega)
  have h0 : (0#32).toInt = 0 := BitVec.toInt_zero
  rw [IntOp.andi_eq_one, IntOp.cmpi_sge, IntOp.cmpi_sle, h0, hN1]
  by_cases hneg : i.toInt < 0
  · have hc : IntOp.cmpi .slt i 0#32 = 1#1 := IntOp.cmpi_slt.mpr (by rw [h0]; exact hneg)
    rw [hc, select_one]
    have hsum : (IntOp.addi i (BitVec.ofNat 32 N)).toInt = i.toInt + (N : ℤ) := by
      show (i + BitVec.ofNat 32 N).toInt = _
      rw [BitVec.toInt_add, hNi]
      exact Int.bmod_eq_of_le_mul_two (by omega) (by omega)
    rw [hsum]
    omega
  · have hc : ¬ IntOp.cmpi .slt i 0#32 = 1#1 := fun h => hneg (by have := IntOp.cmpi_slt.mp h; rwa [h0] at this)
    have hsel : Scalar.select (IntOp.cmpi .slt i 0#32) (IntOp.addi i (BitVec.ofNat 32 N)) i = i := if_neg hc
    rw [hsel]
    omega

/-- A broadcast of a vector that is `c` everywhere is `c` everywhere: the result at an index is the operand at some index. -/
theorem broadcastInDim_eq_const {α : Type} {s t : Shape} (dims : Fin s.rank → Fin t.rank) (h : s.BroadcastsInDim t dims)
    (x : s.Idx → α) (c : α) (hx : ∀ k, x k = c) (j : t.Idx) : broadcastInDim t dims h x j = c := hx _

/-- A fold of `and` from the bit `1` over bits that are all `1` is `1`. -/
theorem foldl_andi_ones {ι : Type} (x : ι → BitVec 1) (hx : ∀ n, x n = 1#1) (l : List ι) :
    l.foldl (fun r n => IntOp.andi r (x n)) 1#1 = 1#1 := by
  induction l with
  | nil => rfl
  | cons a l ih =>
    have h1 : IntOp.andi 1#1 (x a) = 1#1 := by rw [hx a]; decide
    simp only [List.foldl_cons, h1]
    exact ih

/-- A reduction by `and`, from an initial value that is `1`, of a vector of ones is all ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

/-- THE FILLING GATHER IS THE GATHER when every index word lies in `[−N, N)`: the row mask (the reduction by `and`, along
    the unit axis, of the two range tests of the wrapped column) is all ones, so the select keeps `g` everywhere. -/
theorem take_fill_eq {α : Type} {E C : Nat} (N : Nat) (Nw Nm1 : BitVec 32)
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (⟨2, ![E, C]⟩ : Shape) (![0] : Fin 1 → Fin 2))
    (hN0 : 0 < N) (hN : N < 2 ^ 30) (hNw : Nw = BitVec.ofNat 32 N) (hNm1 : Nm1 = BitVec.ofNat 32 (N - 1))
    (idx : IVec (V1 E) 32) (hidx : ∀ e : (V1 E).Idx, -(N : ℤ) ≤ (idx e).toInt ∧ (idx e).toInt < (N : ℤ))
    (g fill : (⟨2, ![E, C]⟩ : Shape).Idx → α) :
    select (broadcastInDim (⟨2, ![E, C]⟩ : Shape) (![0] : Fin 1 → Fin 2) hbEC
        (Host.reduce IntOp.andi
          (andi (cmpi .sge (wrapCol hb0 hbc Nw idx) (broadcastInDim (Col E) (![] : Fin 0 → Fin 2) hb01 (constantI Sc 32 0#32)))
            (cmpi .sle (wrapCol hb0 hbc Nw idx)
              (broadcastInDim (Col E) (![0, 1] : Fin 2 → Fin 2) hb1E
                (broadcastInDim One2 (![1] : Fin 1 → Fin 2) hb11 (constantI (V1 1) 32 Nm1)))))
          (constantI Sc 1 1#1) hr h0)) g fill = g := by
  subst hNw hNm1
  funext j
  rw [select_apply]
  have hmask : broadcastInDim (⟨2, ![E, C]⟩ : Shape) (![0] : Fin 1 → Fin 2) hbEC
        (Host.reduce IntOp.andi
          (andi (cmpi .sge (wrapCol hb0 hbc (BitVec.ofNat 32 N) idx) (broadcastInDim (Col E) (![] : Fin 0 → Fin 2) hb01 (constantI Sc 32 0#32)))
            (cmpi .sle (wrapCol hb0 hbc (BitVec.ofNat 32 N) idx)
              (broadcastInDim (Col E) (![0, 1] : Fin 2 → Fin 2) hb1E
                (broadcastInDim One2 (![1] : Fin 1 → Fin 2) hb11 (constantI (V1 1) 32 (BitVec.ofNat 32 (N - 1)))))))
          (constantI Sc 1 1#1) hr h0) j = 1#1 :=
    broadcastInDim_eq_const _ _ _ _
      (fun k => reduce_andi_ones _ _ _ _ (fun i => wrap_word_in_range N hN0 hN (idx _) (hidx _)) (fun _ => rfl) k) j
  rw [hmask, select_one]

end Cert.LibTakeFill

end
-- ==== Proof.LibTakeFill2.lean ====
/-
  A gather that fills out-of-range rows, through a RANK-2 array of row numbers, when no row number is out of range.
  `jnp.take(x, idx, axis=0)` with `idx` of shape [A, B] lowers to: wrap a negative word by adding the extent `N`; lay the
  wrapped words out as an [A, B, 1] array of start indices; test each against `[0, N − 1]` and reduce the two tests by
  `and` along the unit axis to an [A, B] mask; gather; and select, element by element, the gathered value where the mask
  (broadcast to the result's shape along its two leading axes, or used as it is when the result is [A, B] itself) is set
  and a fill value where it is not. When every word `i` of `idx` satisfies `−N ≤ i < N` the wrapped word lies in
  `[0, N − 1]`, the mask is all ones, and the select returns the gathered values: the fill value is never read.
-/
import proofs.«424581_j28381143892585_1_alg».proof.Proof.LibTakeFill

noncomputable section

namespace Cert.LibTakeFill2

open Idealize.ShloMosaic Idealize.ShloMosaic.ValueIdx Cert.LibTakeFill

/-- An `A × B` array. -/
abbrev M2 (A B : Nat) : Shape := ⟨2, ![A, B]⟩
/-- An `A × B × C` array. -/
abbrev M3 (A B C : Nat) : Shape := ⟨3, ![A, B, C]⟩

/-- The index array after the wrap of its negative words (`i < 0 ↦ i + N`), laid out with a trailing unit axis. -/
abbrev wrapCol2 {A B : Nat} (hb0 : Sc.BroadcastsInDim (M2 A B) (![] : Fin 0 → Fin 2))
    (hbc : (M2 A B).BroadcastsInDim (M3 A B 1) (![0, 1] : Fin 2 → Fin 3)) (Nw : BitVec 32) (idx : IVec (M2 A B) 32) :
    IVec (M3 A B 1) 32 :=
  broadcastInDim (M3 A B 1) (![0, 1] : Fin 2 → Fin 3) hbc
    (select (cmpi .slt idx (broadcastInDim (M2 A B) (![] : Fin 0 → Fin 2) hb0 (constantI Sc 32 0#32)))
      (addi idx (broadcastInDim (M2 A B) (![] : Fin 0 → Fin 2) hb0 (constantI Sc 32 Nw))) idx)

/-- The [A, B] mask of the filling gather: the two range tests of the wrapped start indices, reduced by `and` along the
    unit axis. -/
abbrev takeMask {A B : Nat} (Nw Nm1 : BitVec 32)
    (hb0 : Sc.BroadcastsInDim (M2 A B) (![] : Fin 0 → Fin 2)) (hbc : (M2 A B).BroadcastsInDim (M3 A B 1) (![0, 1] : Fin 2 → Fin 3))
    (hb01 : Sc.BroadcastsInDim (M3 A B 1) (![] : Fin 0 → Fin 3)) (hb11 : (V1 1).BroadcastsInDim (M3 1 1 1) (![2] : Fin 1 → Fin 3))
    (hb1E : (M3 1 1 1).BroadcastsInDim (M3 A B 1) (![0, 1, 2] : Fin 3 → Fin 3))
    (hr : (M3 A B 1).ReducesTo [2] (M2 A B)) (h0 : 0 < Sc.numel) (idx : IVec (M2 A B) 32) : IVec (M2 A B) 1 :=
  Host.reduce IntOp.andi
    (andi (cmpi .sge (wrapCol2 hb0 hbc Nw idx) (broadcastInDim (M3 A B 1) (![] : Fin 0 → Fin 3) hb01 (constantI Sc 32 0#32)))
      (cmpi .sle (wrapCol2 hb0 hbc Nw idx)
        (broadcastInDim (M3 A B 1) (![0, 1, 2] : Fin 3 → Fin 3) hb1E
          (broadcastInDim (M3 1 1 1) (![2] : Fin 1 → Fin 3) hb11 (constantI (V1 1) 32 Nm1)))))
    (constantI Sc 1 1#1) hr h0

/-- With every index word in `[−N, N)` the mask is all ones. -/
theorem takeMask_ones {A B : Nat} (N : Nat) (Nw Nm1 : BitVec 32)
    (hb0 : Sc.BroadcastsInDim (M2 A B) (![] : Fin 0 → Fin 2)) (hbc : (M2 A B).BroadcastsInDim (M3 A B 1) (![0, 1] : Fin 2 → Fin 3))
    (hb01 : Sc.BroadcastsInDim (M3 A B 1) (![] : Fin 0 → Fin 3)) (hb11 : (V1 1).BroadcastsInDim (M3 1 1 1) (![2] : Fin 1 → Fin 3))
    (hb1E : (M3 1 1 1).BroadcastsInDim (M3 A B 1) (![0, 1, 2] : Fin 3 → Fin 3))
    (hr : (M3 A B 1).ReducesTo [2] (M2 A B)) (h0 : 0 < Sc.numel)
    (hN0 : 0 < N) (hN : N < 2 ^ 30) (hNw : Nw = BitVec.ofNat 32 N) (hNm1 : Nm1 = BitVec.ofNat 32 (N - 1))
    (idx : IVec (M2 A B) 32) (hidx : ∀ e : (M2 A B).Idx, -(N : ℤ) ≤ (idx e).toInt ∧ (idx e).toInt < (N : ℤ))
    (k : (M2 A B).Idx) : takeMask Nw Nm1 hb0 hbc hb01 hb11 hb1E hr h0 idx k = 1#1 := by
  subst hNw hNm1
  exact reduce_andi_ones _ _ _ _ (fun i => wrap_word_in_range N hN0 hN (idx _) (hidx _)) (fun _ => rfl) k

/-- THE FILLING GATHER IS THE GATHER, the mask broadcast to the result's shape `T` along the axes `dims`. -/
theorem take_fill_eq2 {α : Type} {A B : Nat} {T : Shape} (N : Nat) (Nw Nm1 : BitVec 32)
    (hb0 : Sc.BroadcastsInDim (M2 A B) (![] : Fin 0 → Fin 2)) (hbc : (M2 A B).BroadcastsInDim (M3 A B 1) (![0, 1] : Fin 2 → Fin 3))
    (hb01 : Sc.BroadcastsInDim (M3 A B 1) (![] : Fin 0 → Fin 3)) (hb11 : (V1 1).BroadcastsInDim (M3 1 1 1) (![2] : Fin 1 → Fin 3))
    (hb1E : (M3 1 1 1).BroadcastsInDim (M3 A B 1) (![0, 1, 2] : Fin 3 → Fin 3))
    (hr : (M3 A B 1).ReducesTo [2] (M2 A B)) (h0 : 0 < Sc.numel)
    (dims : Fin 2 → Fin T.rank) (hbT : (M2 A B).BroadcastsInDim T dims)
    (hN0 : 0 < N) (hN : N < 2 ^ 30) (hNw : Nw = BitVec.ofNat 32 N) (hNm1 : Nm1 = BitVec.ofNat 32 (N - 1))
    (idx : IVec (M2 A B) 32) (hidx : ∀ e : (M2 A B).Idx, -(N : ℤ) ≤ (idx e).toInt ∧ (idx e).toInt < (N : ℤ))
    (g fill : T.Idx → α) :
    select (broadcastInDim T dims hbT (takeMask Nw Nm1 hb0 hbc hb01 hb11 hb1E hr h0 idx)) g fill = g := by
  funext j
  rw [select_apply, broadcastInDim_eq_const dims hbT _ 1#1
    (takeMask_ones N Nw Nm1 hb0 hbc hb01 hb11 hb1E hr h0 hN0 hN hNw hNm1 idx hidx) j, select_one]

/-- THE FILLING GATHER IS THE GATHER, the result of the mask's own shape (one element per index word). -/
theorem take_fill_eq2_flat {α : Type} {A B : Nat} (N : Nat) (Nw Nm1 : BitVec 32)
    (hb0 : Sc.BroadcastsInDim (M2 A B) (![] : Fin 0 → Fin 2)) (hbc : (M2 A B).BroadcastsInDim (M3 A B 1) (![0, 1] : Fin 2 → Fin 3))
    (hb01 : Sc.BroadcastsInDim (M3 A B 1) (![] : Fin 0 → Fin 3)) (hb11 : (V1 1).BroadcastsInDim (M3 1 1 1) (![2] : Fin 1 → Fin 3))
    (hb1E : (M3 1 1 1).BroadcastsInDim (M3 A B 1) (![0, 1, 2] : Fin 3 → Fin 3))
    (hr : (M3 A B 1).ReducesTo [2] (M2 A B)) (h0 : 0 < Sc.numel)
    (hN0 : 0 < N) (hN : N < 2 ^ 30) (hNw : Nw = BitVec.ofNat 32 N) (hNm1 : Nm1 = BitVec.ofNat 32 (N - 1))
    (idx : IVec (M2 A B) 32) (hidx : ∀ e : (M2 A B).Idx, -(N : ℤ) ≤ (idx e).toInt ∧ (idx e).toInt < (N : ℤ))
    (g fill : (M2 A B).Idx → α) :
    select (takeMask Nw Nm1 hb0 hbc hb01 hb11 hb1E hr h0 idx) g fill = g := by
  funext j
  rw [select_apply, takeMask_ones N Nw Nm1 hb0 hbc hb01 hb11 hb1E hr h0 hN0 hN hNw hNm1 idx hidx j, select_one]

end Cert.LibTakeFill2

end
-- ==== Proof.Glue.lean ====
/-
  The host operations between the two pallas_calls, as functions of the arrays they read.

  Three times the program takes rows through an array of row numbers (`jnp.take`, filling): the routed rows of the input
  through `within_batch_idx`, each class's embedding rows and each class's biases through `cluster`. Each lowers to the
  same chain: wrap a negative row number by adding the extent, lay the row numbers out with a trailing unit axis, test
  them against the extent, gather, and select the gathered value or a fill value by the test. Two reshapes put a unit
  axis into the class bias (`[64] → [1, 64]`) and into the gathered word biases (`[64, 1024] → [64, 1, 1024]`).

  Each chain run from ANY contents of the program's buffers leaves its result buffer at the chain's function of what its
  operand buffers held; and when every row number lies in `[−N, N)` the test passes everywhere and the filling gather is
  the gather.
-/
import proofs.«424581_j28381143892585_1_alg».proof.Proof.Gen.KernelIdeal.Launch
import proofs.«424581_j28381143892585_1_alg».proof.Proof.LibTakeFill2
import Idealize.ShloMosaic.Lib.StableHlo.Run

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]

/-! ## The chains as functions -/

/-- Row numbers of `input` after the wrap of the negative ones, with a trailing unit axis. -/
abbrev wrapTok (idx : IVec S64x128 32) : IVec S64x128x1 32 :=
  broadcastInDim S64x128x1 ![0, 1] bcast_S64x128_S64x128x1_0_1
    (select (cmpi .slt idx (broadcastInDim S64x128 ![] bcast_S_S64x128 (constantI S_ 32 0#32)))
      (addi idx (broadcastInDim S64x128 ![] bcast_S_S64x128 (constantI S_ 32 8192#32))) idx)

/-- Which of them lie in `[0, 8191]`. -/
abbrev maskTok (idx : IVec S64x128 32) : IVec S64x128 1 :=
  Host.reduce IntOp.andi
    (andi (cmpi .sge (wrapTok idx) (broadcastInDim S64x128x1 ![] bcast_S_S64x128x1 (constantI S_ 32 0#32)))
      (cmpi .sle (wrapTok idx) (broadcastInDim S64x128x1 ![0, 1, 2] bcast_S1x1x1_S64x128x1_0_1_2
        (broadcastInDim S1x1x1 ![2] bcast_S1_S1x1x1_2 (constantI S1 32 8191#32)))))
    (constantI S_ 1 1#1) reducesTo_S64x128x1_S64x128_d2 h_S_

/-- The routed rows as the program gathers them: rows of `x`, or the fill value where the row number is out of range. -/
abbrev takeTok (x : FVec F S8192x1024 .f32) (idx : IVec S64x128 32) : FVec F S64x128x1024 .f32 :=
  select (broadcastInDim S64x128x1024 ![0, 1] bcast_S64x128_S64x128x1024_0_1 (maskTok idx))
    (Host.gather gather_S8192x1024_S64x128x1_S64x128x1024_2_0_n_n_0_2_11024 x (wrapTok idx))
    (broadcastInDim S64x128x1024 ![] bcast_S_S64x128x1024 (constant S_ .f32 0x7FC00000#32))

/-- Word ids after the wrap of the negative ones, with a trailing unit axis. -/
abbrev wrapWord (idx : IVec S64x1024 32) : IVec S64x1024x1 32 :=
  broadcastInDim S64x1024x1 ![0, 1] bcast_S64x1024_S64x1024x1_0_1
    (select (cmpi .slt idx (broadcastInDim S64x1024 ![] bcast_S_S64x1024 (constantI S_ 32 0#32)))
      (addi idx (broadcastInDim S64x1024 ![] bcast_S_S64x1024 (constantI S_ 32 65536#32))) idx)

/-- Which of them lie in `[0, 65535]`. -/
abbrev maskWord (idx : IVec S64x1024 32) : IVec S64x1024 1 :=
  Host.reduce IntOp.andi
    (andi (cmpi .sge (wrapWord idx) (broadcastInDim S64x1024x1 ![] bcast_S_S64x1024x1 (constantI S_ 32 0#32)))
      (cmpi .sle (wrapWord idx) (broadcastInDim S64x1024x1 ![0, 1, 2] bcast_S1x1x1_S64x1024x1_0_1_2
        (broadcastInDim S1x1x1 ![2] bcast_S1_S1x1x1_2 (constantI S1 32 65535#32)))))
    (constantI S_ 1 1#1) reducesTo_S64x1024x1_S64x1024_d2 h_S_

/-- Each class's embedding rows as the program gathers them. -/
abbrev takeEmb (x : FVec F S65536x1024 .f32) (idx : IVec S64x1024 32) : FVec F S64x1024x1024 .f32 :=
  select (broadcastInDim S64x1024x1024 ![0, 1] bcast_S64x1024_S64x1024x1024_0_1 (maskWord idx))
    (Host.gather gather_S65536x1024_S64x1024x1_S64x1024x1024_2_0_n_n_0_2_11024 x (wrapWord idx))
    (broadcastInDim S64x1024x1024 ![] bcast_S_S64x1024x1024 (constant S_ .f32 0x7FC00000#32))

/-- Each class's word biases as the program gathers them. -/
abbrev takeBias (x : FVec F S65536 .f32) (idx : IVec S64x1024 32) : FVec F S64x1024 .f32 :=
  select (maskWord idx)
    (Host.gather gather_S65536_S64x1024x1_S64x1024_n_0_n_n_0_2_1 x (wrapWord idx))
    (broadcastInDim S64x1024 ![] bcast_S_S64x1024 (constant S_ .f32 0x7FC00000#32))

/-! ## Each stretch of host operations, run from any contents -/

variable (Vv : Valuation τ sig (Elt F))

set_option maxHeartbeats 1000000 in
/-- The class bias as a row. -/
theorem biasRow_result : StableHlo.after hostOps0 Vv (Proc.devRef .tc main_v0)
    = shapeCast S1x64 (Vv (Proc.devRef .tc main_arg2)) shapeCasts_S64_S1x64 := by
  dsimp only [hostOps0]
  after_results
  rfl

set_option maxHeartbeats 2000000 in
/-- The routed rows. -/
theorem takeTok_result : StableHlo.after hostOps1 Vv (Proc.devRef .tc main_v2)
    = takeTok (Vv (Proc.devRef .tc main_arg0)) (Vv (Proc.devRef .tc main_arg5)) := by
  dsimp only [hostOps1]
  after_results
  rfl

set_option maxRecDepth 262144 in
set_option maxHeartbeats 2000000 in
/-- The classes' embedding rows. -/
theorem takeEmb_result : StableHlo.after hostOps1_1 Vv (Proc.devRef .tc main_v3)
    = takeEmb (Vv (Proc.devRef .tc main_arg3)) (Vv (Proc.devRef .tc main_arg6)) := by
  dsimp only [hostOps1_1]
  after_results
  rfl

set_option maxRecDepth 262144 in
set_option maxHeartbeats 2000000 in
/-- The classes' word biases. -/
theorem takeBias_result : StableHlo.after hostOps1_2 Vv (Proc.devRef .tc main_v4)
    = takeBias (Vv (Proc.devRef .tc main_arg4)) (Vv (Proc.devRef .tc main_arg6)) := by
  dsimp only [hostOps1_2]
  after_results
  rfl

set_option maxHeartbeats 1000000 in
/-- The word biases with a unit axis between class and word. -/
theorem biasSlab_result : StableHlo.after hostOps1_3 Vv (Proc.devRef .tc main_v5)
    = shapeCast S64x1x1024 (Vv (Proc.devRef .tc main_v4)) shapeCasts_S64x1024_S64x1x1024 := by
  dsimp only [hostOps1_3]
  after_results
  rfl

end Cert.KernelIdeal.Glue

end
-- ==== Proof.Entry.lean ====
/-
  What the program's buffers hold when each pallas_call is entered, and where its two results end up, read through the
  fold of buffer contents along @main.

  A buffer that no operation of a stretch writes keeps its contents across the stretch; a pallas_call leaves every buffer
  that is not one of its windows' arrays alone, and leaves an input window's array as it found it. So at the first call's
  entry the input, the class weights and the class bias row are the launch contents (the bias row reshaped); at the second
  call's entry the three gathered arrays are the host chains' functions of the launch contents; the class logits, written by
  the first call, are touched by nothing after it; and the word logits are what the second call leaves.
-/
import proofs.«424581_j28381143892585_1_alg».proof.Proof.Gen.KernelIdeal.Frame
import proofs.«424581_j28381143892585_1_alg».proof.Proof.Glue

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-! ## Buffers a stretch of host operations does not write -/

section Keep
variable (Vv : Valuation τ sig (Elt F))

local macro "not_written" : tactic => `(tactic| (
  refine StableHlo.after_of_forall_not_mem _ _ (List.forall_iff_forall_mem.mp ?_)
  simp only [hostOps0, hostOps1, hostOps1_1, hostOps1_2, hostOps1_3, List.Forall, StableHlo.nullary_writes,
    StableHlo.unary_writes, StableHlo.binary_writes, StableHlo.ternary_writes, StableHlo.reshape_writes, Finset.mem_singleton]
  repeat' apply And.intro
  all_goals exact StableHlo.devRef_ne_of_ne (by decide)))

theorem keep_hostOps0_main_arg0 : StableHlo.after hostOps0 Vv (Proc.devRef .tc main_arg0) = Vv (Proc.devRef .tc main_arg0) := by not_written
theorem keep_hostOps0_main_arg1 : StableHlo.after hostOps0 Vv (Proc.devRef .tc main_arg1) = Vv (Proc.devRef .tc main_arg1) := by not_written
theorem keep_hostOps0_main_arg3 : StableHlo.after hostOps0 Vv (Proc.devRef .tc main_arg3) = Vv (Proc.devRef .tc main_arg3) := by not_written
theorem keep_hostOps0_main_arg4 : StableHlo.after hostOps0 Vv (Proc.devRef .tc main_arg4) = Vv (Proc.devRef .tc main_arg4) := by not_written
theorem keep_hostOps0_main_arg5 : StableHlo.after hostOps0 Vv (Proc.devRef .tc main_arg5) = Vv (Proc.devRef .tc main_arg5) := by not_written
theorem keep_hostOps0_main_arg6 : StableHlo.after hostOps0 Vv (Proc.devRef .tc main_arg6) = Vv (Proc.devRef .tc main_arg6) := by not_written
theorem keep_hostOps1_main_arg3 : StableHlo.after hostOps1 Vv (Proc.devRef .tc main_arg3) = Vv (Proc.devRef .tc main_arg3) := by not_written
theorem keep_hostOps1_main_arg4 : StableHlo.after hostOps1 Vv (Proc.devRef .tc main_arg4) = Vv (Proc.devRef .tc main_arg4) := by not_written
theorem keep_hostOps1_main_arg6 : StableHlo.after hostOps1 Vv (Proc.devRef .tc main_arg6) = Vv (Proc.devRef .tc main_arg6) := by not_written
theorem keep_hostOps1_main_v1 : StableHlo.after hostOps1 Vv (Proc.devRef .tc main_v1) = Vv (Proc.devRef .tc main_v1) := by not_written
theorem keep_hostOps1_1_main_v2 : StableHlo.after hostOps1_1 Vv (Proc.devRef .tc main_v2) = Vv (Proc.devRef .tc main_v2) := by not_written
theorem keep_hostOps1_1_main_arg4 : StableHlo.after hostOps1_1 Vv (Proc.devRef .tc main_arg4) = Vv (Proc.devRef .tc main_arg4) := by not_written
theorem keep_hostOps1_1_main_arg6 : StableHlo.after hostOps1_1 Vv (Proc.devRef .tc main_arg6) = Vv (Proc.devRef .tc main_arg6) := by not_written
theorem keep_hostOps1_1_main_v1 : StableHlo.after hostOps1_1 Vv (Proc.devRef .tc main_v1) = Vv (Proc.devRef .tc main_v1) := by not_written
theorem keep_hostOps1_2_main_v2 : StableHlo.after hostOps1_2 Vv (Proc.devRef .tc main_v2) = Vv (Proc.devRef .tc main_v2) := by not_written
theorem keep_hostOps1_2_main_v3 : StableHlo.after hostOps1_2 Vv (Proc.devRef .tc main_v3) = Vv (Proc.devRef .tc main_v3) := by not_written
theorem keep_hostOps1_2_main_v1 : StableHlo.after hostOps1_2 Vv (Proc.devRef .tc main_v1) = Vv (Proc.devRef .tc main_v1) := by not_written
theorem keep_hostOps1_3_main_v2 : StableHlo.after hostOps1_3 Vv (Proc.devRef .tc main_v2) = Vv (Proc.devRef .tc main_v2) := by not_written
theorem keep_hostOps1_3_main_v3 : StableHlo.after hostOps1_3 Vv (Proc.devRef .tc main_v3) = Vv (Proc.devRef .tc main_v3) := by not_written
theorem keep_hostOps1_3_main_v1 : StableHlo.after hostOps1_3 Vv (Proc.devRef .tc main_v1) = Vv (Proc.devRef .tc main_v1) := by not_written

end Keep

variable (m : (ℓ : Loc nD τ sig) → Buf (Elt F) ℓ) (ρ : Dev nD → PrngReg)

/-! ## The argument arrays at the first call's entry and exit -/

theorem W1_arg0 (c : Dev nD) : W1 m ρ c (Proc.devRef .tc main_arg0) = m ((c : Thread nD τ).loc main_arg0) := keep_hostOps0_main_arg0 (W0 m ρ c)
theorem W1_arg1 (c : Dev nD) : W1 m ρ c (Proc.devRef .tc main_arg1) = m ((c : Thread nD τ).loc main_arg1) := keep_hostOps0_main_arg1 (W0 m ρ c)
theorem W1_arg3 (c : Dev nD) : W1 m ρ c (Proc.devRef .tc main_arg3) = m ((c : Thread nD τ).loc main_arg3) := keep_hostOps0_main_arg3 (W0 m ρ c)
theorem W1_arg4 (c : Dev nD) : W1 m ρ c (Proc.devRef .tc main_arg4) = m ((c : Thread nD τ).loc main_arg4) := keep_hostOps0_main_arg4 (W0 m ρ c)
theorem W1_arg5 (c : Dev nD) : W1 m ρ c (Proc.devRef .tc main_arg5) = m ((c : Thread nD τ).loc main_arg5) := keep_hostOps0_main_arg5 (W0 m ρ c)
theorem W1_arg6 (c : Dev nD) : W1 m ρ c (Proc.devRef .tc main_arg6) = m ((c : Thread nD τ).loc main_arg6) := keep_hostOps0_main_arg6 (W0 m ρ c)

/-- The first call reads `input` through an input window: it leaves it as it found it. -/
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

/-! ## The first call's entry -/

theorem entryA_x (c : Dev nD) : V1 m ρ c main_arg0 = m ((c : Thread nD τ).loc main_arg0) := W1_arg0 m ρ c
theorem entryA_w (c : Dev nD) : V1 m ρ c main_arg1 = m ((c : Thread nD τ).loc main_arg1) := W1_arg1 m ρ c
theorem entryA_b (c : Dev nD) : V1 m ρ c main_v0 = shapeCast S1x64 (m ((c : Thread nD τ).loc main_arg2)) shapeCasts_S64_S1x64 :=
  Glue.biasRow_result (W0 m ρ c)

/-! ## The second call's entry -/

theorem entryB_tok (c : Dev nD) :
    V6 m ρ c main_v2 = Glue.takeTok (m ((c : Thread nD τ).loc main_arg0)) (m ((c : Thread nD τ).loc main_arg5)) := by
  refine (keep_hostOps1_3_main_v2 (W5 m ρ c)).trans ((keep_hostOps1_2_main_v2 (W4 m ρ c)).trans
    ((keep_hostOps1_1_main_v2 (W3 m ρ c)).trans ((Glue.takeTok_result (W2 m ρ c)).trans ?_)))
  rw [W2_arg0, W2_arg5]

theorem entryB_emb (c : Dev nD) :
    V6 m ρ c main_v3 = Glue.takeEmb (m ((c : Thread nD τ).loc main_arg3)) (m ((c : Thread nD τ).loc main_arg6)) := by
  refine (keep_hostOps1_3_main_v3 (W5 m ρ c)).trans ((keep_hostOps1_2_main_v3 (W4 m ρ c)).trans
    ((Glue.takeEmb_result (W3 m ρ c)).trans ?_))
  rw [show W3 m ρ c (Proc.devRef .tc main_arg3) = m ((c : Thread nD τ).loc main_arg3) from
      (keep_hostOps1_main_arg3 (W2 m ρ c)).trans (W2_arg3 m ρ c),
    show W3 m ρ c (Proc.devRef .tc main_arg6) = m ((c : Thread nD τ).loc main_arg6) from
      (keep_hostOps1_main_arg6 (W2 m ρ c)).trans (W2_arg6 m ρ c)]

theorem entryB_bias (c : Dev nD) :
    V6 m ρ c main_v5 = shapeCast S64x1x1024
      (Glue.takeBias (m ((c : Thread nD τ).loc main_arg4)) (m ((c : Thread nD τ).loc main_arg6))) shapeCasts_S64x1024_S64x1x1024 := by
  refine (Glue.biasSlab_result (W5 m ρ c)).trans ?_
  rw [show W5 m ρ c (Proc.devRef .tc main_v4) = Glue.takeBias (W4 m ρ c (Proc.devRef .tc main_arg4)) (W4 m ρ c (Proc.devRef .tc main_arg6)) from
      Glue.takeBias_result (W4 m ρ c),
    show W4 m ρ c (Proc.devRef .tc main_arg4) = m ((c : Thread nD τ).loc main_arg4) from
      (keep_hostOps1_1_main_arg4 (W3 m ρ c)).trans ((keep_hostOps1_main_arg4 (W2 m ρ c)).trans (W2_arg4 m ρ c)),
    show W4 m ρ c (Proc.devRef .tc main_arg6) = m ((c : Thread nD τ).loc main_arg6) from
      (keep_hostOps1_1_main_arg6 (W3 m ρ c)).trans ((keep_hostOps1_main_arg6 (W2 m ρ c)).trans (W2_arg6 m ρ c))]

/-! ## Where the two results end up -/

/-- The class logits: what the first call leaves in its result array, untouched afterwards. -/
theorem exit_cls (c : Dev nD) : W7 m ρ c (Proc.devRef .tc main_v1) = (dat0 (V1 m ρ) c).arrAt 3 cfg0.N :=
  (W7_of_ne m ρ c main_v1 (by decide)).trans ((keep_hostOps1_3_main_v1 (W5 m ρ c)).trans
    ((keep_hostOps1_2_main_v1 (W4 m ρ c)).trans ((keep_hostOps1_1_main_v1 (W3 m ρ c)).trans
      ((keep_hostOps1_main_v1 (W2 m ρ c)).trans (W2_arr m ρ c 3)))))

/-- The word logits: what the second call leaves in its result array. -/
theorem exit_words (c : Dev nD) : W7 m ρ c (Proc.devRef .tc main_v6) = (dat1 (V6 m ρ) c).arrAt 3 cfg1.N :=
  W7_arr m ρ c 3

end Cert.KernelIdeal.Entry

end
-- ==== Proof.InRange.lean ====
/-
  With every row number in range, each filling gather of the host code is the plain gather: a row number `i` of `input` with
  `−8192 ≤ i < 8192`, and a word id `i` with `−65536 ≤ i < 65536`, wraps into the array, so the range test passes on every
  element and the select never reads the fill value.
-/
import proofs.«424581_j28381143892585_1_alg».proof.Proof.Glue

noncomputable section

namespace Cert.KernelIdeal.Glue

open Cert.KernelIdeal Cert.KernelIdeal.Gen Idealize.ShloMosaic

variable {F : FTy → Type} [FloatOps F]

/-- The routed rows are the gathered rows. -/
theorem takeTok_eq (x : FVec F S8192x1024 .f32) (idx : IVec S64x128 32)
    (h : ∀ e : S64x128.Idx, -((8192 : ℕ) : ℤ) ≤ (idx e).toInt ∧ (idx e).toInt < ((8192 : ℕ) : ℤ)) :
    takeTok x idx = Host.gather gather_S8192x1024_S64x128x1_S64x128x1024_2_0_n_n_0_2_11024 x (wrapTok idx) :=
  Cert.LibTakeFill2.take_fill_eq2 8192 8192#32 8191#32 bcast_S_S64x128 bcast_S64x128_S64x128x1_0_1 bcast_S_S64x128x1
    bcast_S1_S1x1x1_2 bcast_S1x1x1_S64x128x1_0_1_2 reducesTo_S64x128x1_S64x128_d2 h_S_ ![0, 1] bcast_S64x128_S64x128x1024_0_1
    (by decide) (by decide) rfl rfl idx h _ _

/-- The classes' embedding rows are the gathered rows. -/
theorem takeEmb_eq (x : FVec F S65536x1024 .f32) (idx : IVec S64x1024 32)
    (h : ∀ e : S64x1024.Idx, -((65536 : ℕ) : ℤ) ≤ (idx e).toInt ∧ (idx e).toInt < ((65536 : ℕ) : ℤ)) :
    takeEmb x idx = Host.gather gather_S65536x1024_S64x1024x1_S64x1024x1024_2_0_n_n_0_2_11024 x (wrapWord idx) :=
  Cert.LibTakeFill2.take_fill_eq2 65536 65536#32 65535#32 bcast_S_S64x1024 bcast_S64x1024_S64x1024x1_0_1 bcast_S_S64x1024x1
    bcast_S1_S1x1x1_2 bcast_S1x1x1_S64x1024x1_0_1_2 reducesTo_S64x1024x1_S64x1024_d2 h_S_ ![0, 1] bcast_S64x1024_S64x1024x1024_0_1
    (by decide) (by decide) rfl rfl idx h _ _

/-- The classes' word biases are the gathered biases. -/
theorem takeBias_eq (x : FVec F S65536 .f32) (idx : IVec S64x1024 32)
    (h : ∀ e : S64x1024.Idx, -((65536 : ℕ) : ℤ) ≤ (idx e).toInt ∧ (idx e).toInt < ((65536 : ℕ) : ℤ)) :
    takeBias x idx = Host.gather gather_S65536_S64x1024x1_S64x1024_n_0_n_n_0_2_1 x (wrapWord idx) :=
  Cert.LibTakeFill2.take_fill_eq2_flat 65536 65536#32 65535#32 bcast_S_S64x1024 bcast_S64x1024_S64x1024x1_0_1 bcast_S_S64x1024x1
    bcast_S1_S1x1x1_2 bcast_S1x1x1_S64x1024x1_0_1_2 reducesTo_S64x1024x1_S64x1024_d2 h_S_
    (by decide) (by decide) rfl rfl idx h _ _

end Cert.KernelIdeal.Glue

end
-- ==== Proof.PreRange.lean ====
/-
  The index ranges, read out of the precondition. The precondition is one bit: the conjunction of five finiteness tests
  of the float inputs and of two range tests, `all(−8192 ≤ within_batch_idx < 8192)` and `all(−65536 ≤ cluster < 65536)`.
  The bit being set, each conjunct is set; an `all` that is set had every element set; and an element of a range test
  being set says its index word, read as a signed integer, lies between the two bounds.
-/
import proofs.«424581_j28381143892585_1_alg».proof.Pre_finite_inputs
import Idealize.ShloMosaic.Lib.ReduceAll
import Idealize.ShloMosaic.Lib.ValueIdx

noncomputable section

namespace Cert.PreRange

open Idealize.ShloMosaic Idealize.ShloMosaic.ValueIdx Cert.Pre_finite_inputs

variable [Cert.Pre_finite_inputs.Facts]

instance : Subsingleton Cert.Pre_finite_inputs.S_.Idx := ⟨fun a b => funext fun d => d.elim0⟩

/-- The two bounds' words read, signed, as `−8192` and `8192`, `−65536` and `65536`. -/
theorem toInt_m8192 : (4294959104#32 : BitVec 32).toInt = -8192 := by decide
theorem toInt_8192 : (8192#32 : BitVec 32).toInt = 8192 := by decide
theorem toInt_m65536 : (4294901760#32 : BitVec 32).toInt = -65536 := by decide
theorem toInt_65536 : (65536#32 : BitVec 32).toInt = 65536 := by decide

/-- Under the precondition every word of both index arrays is in range: a row number of `input` in `[−8192, 8192)`, a
    word id in `[−65536, 65536)`. -/
theorem ranges {F : FTy → Type} [FloatOps F]
    (a0 : FVec F S8192x1024 .f32) (a1 : FVec F S64x1024 .f32) (a2 : FVec F S64 .f32) (a3 : FVec F S65536x1024 .f32)
    (a4 : FVec F S65536 .f32) (a5 : IVec S64x128 32) (a6 : IVec S64x1024 32)
    (h : Cert.Pre_finite_inputs.fn (F := F) a0 a1 a2 a3 a4 a5 a6 = fun _ => 1#1) :
    (∀ e : S64x128.Idx, -((8192 : ℕ) : ℤ) ≤ (a5 e).toInt ∧ (a5 e).toInt < ((8192 : ℕ) : ℤ))
    ∧ (∀ e : S64x1024.Idx, -((65536 : ℕ) : ℤ) ≤ (a6 e).toInt ∧ (a6 e).toInt < ((65536 : ℕ) : ℤ)) := by
  have h0 := congrFun h ix0
  unfold Cert.Pre_finite_inputs.fn Cert.Pre_finite_inputs.fn_part1 Cert.Pre_finite_inputs.fn_part2 at h0
  dsimp only at h0
  obtain ⟨h30, h36⟩ := IntOp.andi_eq_one.mp h0
  obtain ⟨-, h29⟩ := IntOp.andi_eq_one.mp h30
  refine ⟨fun e => ?_, fun e => ?_⟩
  · have he := Host.reduce_andi_all _ _ _ _ ix0 h29 e
    obtain ⟨hge, hlt⟩ := IntOp.andi_eq_one.mp he
    have h1 := IntOp.cmpi_sge.mp hge
    have h2 := IntOp.cmpi_slt.mp hlt
    have b1 : (4294959104#32 : BitVec 32).toInt ≤ (a5 e).toInt := h1
    have b2 : (a5 e).toInt < (8192#32 : BitVec 32).toInt := h2
    rw [toInt_m8192] at b1
    rw [toInt_8192] at b2
    exact ⟨by push_cast; exact b1, by push_cast; exact b2⟩
  · have he := Host.reduce_andi_all _ _ _ _ ix0 h36 e
    obtain ⟨hge, hlt⟩ := IntOp.andi_eq_one.mp he
    have h1 := IntOp.cmpi_sge.mp hge
    have h2 := IntOp.cmpi_slt.mp hlt
    have b1 : (4294901760#32 : BitVec 32).toInt ≤ (a6 e).toInt := h1
    have b2 : (a6 e).toInt < (65536#32 : BitVec 32).toInt := h2
    rw [toInt_m65536] at b1
    rw [toInt_65536] at b2
    exact ⟨by push_cast; exact b1, by push_cast; exact b2⟩

end Cert.PreRange

end
-- ==== Proof.RefValue.lean ====
/-
  The reference's two results as the same two functions the kernel's regions compute.

  The class logits: `input @ cls_w.T + cls_b` at row `i`, column `j` is the inner product of input row `i` with weight row `j`
  (the transpose only renames the weight's coordinates) plus `cls_b[j]` (the two broadcasts read the bias at `j`).

  The word logits: the batched `einsum('cth,csh->cts')` at `(c, t, s)` is the inner product of gathered token row `(c, t)` with
  gathered embedding row `(c, s)`; the bias `b[:, None, :]` reads the gathered word bias at `(c, s)`, which is the entry
  `(c, 0, s)` of the same array laid out with a unit axis in the middle. The three gathers stay as they are: the reference
  wraps a negative row number exactly as the kernel's host code does, and gathers with the same dimension numbers.
-/
import proofs.«424581_j28381143892585_1_alg».proof.Proof.Gen.ReferenceIdeal.Read
import proofs.«424581_j28381143892585_1_alg».proof.Proof.RegionValue
import proofs.«424581_j28381143892585_1_alg».proof.Proof.Glue
import Idealize.ShloMosaic.Lib.ValueLayout

noncomputable section

namespace Cert.ReferenceIdeal.RefValue

open Cert.ReferenceIdeal Cert.ReferenceIdeal.Read Idealize.ShloMosaic Idealize.ShloMosaic.ValueIdx

/-- An `[a, b]` array laid out as `[a, 1, b]` reads, at `(p, u, q)`, the operand at `(p, q)`: same row-major position. -/
theorem shapeCast_ab_a1b_apply {α : Type} {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- THE CLASS LOGITS of the reference are `clsG` of the input, the weights and the bias as a row. -/
theorem cls_eq (x0 : FVec Ideal S8192x1024 .f32) (x1 : FVec Ideal S64x1024 .f32) (x2 : FVec Ideal S64 .f32) :
    val_main_v4 (F := Ideal) x0 x1 x2
      = Cert.KernelIdeal.Region.clsG x0 x1 (shapeCast Cert.KernelIdeal.S1x64 x2 Cert.KernelIdeal.Gen.shapeCasts_S64_S1x64) := by
  funext i
  rw [val_main_v4_apply, val_main_v1_apply, val_main_v3_apply, val_main_v2_apply, Ideal.addf_def]
  unfold Cert.KernelIdeal.Region.clsG
  refine congrArg₂ (· + ·) (Finset.sum_congr rfl fun k _ => congrArg₂ (· * ·) (congrArg x0 ?_) ?_) ?_
  · funext a; match a with | ⟨0, _⟩ => rfl | ⟨1, _⟩ => rfl
  · rw [val_main_v0_apply]
    refine congrArg x1 ?_
    funext a; match a with | ⟨0, _⟩ => rfl | ⟨1, _⟩ => rfl
  · rw [shapeCast_a_1a_apply]
    refine congrArg x2 ?_
    funext a; match a with | ⟨0, _⟩ => rfl

/-- THE WORD LOGITS of the reference are `wordsG` of its three gathered arrays, the gathered biases with a unit axis. -/
theorem words_eq (x0 : FVec Ideal S8192x1024 .f32) (x3 : FVec Ideal S65536x1024 .f32) (x4 : FVec Ideal S65536 .f32)
    (x5 : IVec S64x128 32) (x6 : IVec S64x1024 32) :
    val_main_v29 (F := Ideal) x0 x3 x4 x5 x6
      = Cert.KernelIdeal.Region.wordsG (val_main_v11 (F := Ideal) x0 x5) (val_main_v18 (F := Ideal) x3 x6)
          (shapeCast Cert.KernelIdeal.S64x1x1024 (val_main_v25 (F := Ideal) x4 x6) Cert.KernelIdeal.Gen.shapeCasts_S64x1024_S64x1x1024) := by
  funext i
  rw [val_main_v29_apply, val_main_v26_apply, val_main_v28_apply, val_main_v27_apply, Ideal.addf_def]
  unfold Cert.KernelIdeal.Region.wordsG
  generalize val_main_v11 (F := Ideal) x0 x5 = D
  generalize val_main_v18 (F := Ideal) x3 x6 = E
  generalize val_main_v25 (F := Ideal) x4 x6 = B
  refine congrArg₂ (· + ·) (Finset.sum_congr rfl fun k _ => congrArg₂ (· * ·) (congrArg D ?_) (congrArg E ?_)) ?_
  · funext a; match a with | ⟨0, _⟩ => rfl | ⟨1, _⟩ => rfl | ⟨2, _⟩ => rfl
  · funext a; match a with | ⟨0, _⟩ => rfl | ⟨1, _⟩ => rfl | ⟨2, _⟩ => rfl
  · rw [shapeCast_ab_a1b_apply]
    refine congrArg B ?_
    funext a; match a with | ⟨0, _⟩ => rfl | ⟨1, _⟩ => rfl

/-! ## The reference's gathers are the kernel's host code's gathers -/

/-- The routed rows: the same wrap of negative row numbers, the same gather. -/
theorem gatherTok_eq (x : FVec Ideal S8192x1024 .f32) (idx : IVec S64x128 32) :
    Host.gather Cert.KernelIdeal.gather_S8192x1024_S64x128x1_S64x128x1024_2_0_n_n_0_2_11024 x (Cert.KernelIdeal.Glue.wrapTok idx)
      = val_main_v11 (F := Ideal) x idx := rfl

/-- The classes' embedding rows. -/
theorem gatherEmb_eq (x : FVec Ideal S65536x1024 .f32) (idx : IVec S64x1024 32) :
    Host.gather Cert.KernelIdeal.gather_S65536x1024_S64x1024x1_S64x1024x1024_2_0_n_n_0_2_11024 x (Cert.KernelIdeal.Glue.wrapWord idx)
      = val_main_v18 (F := Ideal) x idx := rfl

/-- The classes' word biases. -/
theorem gatherBias_eq (x : FVec Ideal S65536 .f32) (idx : IVec S64x1024 32) :
    Host.gather Cert.KernelIdeal.gather_S65536_S64x1024x1_S64x1024_n_0_n_n_0_2_1 x (Cert.KernelIdeal.Glue.wrapWord idx)
      = val_main_v25 (F := Ideal) x idx := rfl

end Cert.ReferenceIdeal.RefValue

end
-- ==== Proof.lean ====
/-
  The certificate of a two-level softmax decoder's logits.

  The program computes two arrays. The class logits: every one of the 8192 token rows against every one of the 64 class
  weight rows, plus the class bias. The word logits: the tokens are routed to classes by an array of row numbers, each class
  has 1024 words given by an array of word ids, and for class `c` every routed token row is multiplied against every one of
  the class's word embedding rows, plus the word's bias.

  The kernel computes both with the matrix unit, block by block: the class logits in 8 row blocks, the word logits one
  class at a time, its operands narrowed to bf16 first; the rows are gathered on the host by `jnp.take`, which fills
  out-of-range rows with a fill value. The reference multiplies in one `dot_general` each and gathers by plain indexing,
  which clamps. Over the extended reals the narrowing is the identity and a blocked matrix product is the product; the two
  gathers agree exactly when every row number indexes its array, `−N ≤ i < N` with a negative number counting from the end —
  the domain on which indexing is defined, and the precondition states it for both index arrays.

  So both programs end with: class logit `(i, j)` = Σₖ input[i, k] · cls_w[j, k] + cls_b[j]; word logit `(c, t, s)` =
  Σₖ d[c, t, k] · e[c, s, k] + b[c, s], with `d`, `e`, `b` the gathers of input rows, embedding rows and biases through the
  wrapped row numbers. No law of arithmetic beyond that is used, and finiteness of the float inputs is never opened.
-/
import proofs.«424581_j28381143892585_1_alg».proof.Defs
import proofs.«424581_j28381143892585_1_alg».proof.Proof.Gen.Kernel
import proofs.«424581_j28381143892585_1_alg».proof.Proof.Gen.Kernel.Skeleton
import proofs.«424581_j28381143892585_1_alg».proof.Proof.Gen.Kernel.Launch
import proofs.«424581_j28381143892585_1_alg».proof.Proof.Gen.Kernel.Points
import proofs.«424581_j28381143892585_1_alg».proof.Proof.Gen.Kernel.Frame
import proofs.«424581_j28381143892585_1_alg».proof.Proof.Gen.KernelIdeal
import proofs.«424581_j28381143892585_1_alg».proof.Proof.Gen.KernelIdeal.Skeleton
import proofs.«424581_j28381143892585_1_alg».proof.Proof.Gen.KernelIdeal.Launch
import proofs.«424581_j28381143892585_1_alg».proof.Proof.Gen.KernelIdeal.Points
import proofs.«424581_j28381143892585_1_alg».proof.Proof.Gen.KernelIdeal.Frame
import proofs.«424581_j28381143892585_1_alg».proof.Proof.Gen.ReferenceIdeal
import proofs.«424581_j28381143892585_1_alg».proof.Proof.Gen.ReferenceIdeal.Run
import proofs.«424581_j28381143892585_1_alg».proof.Proof.Gen.ReferenceIdeal.Read
import proofs.«424581_j28381143892585_1_alg».proof.Proof.Gen.Pre_finite_inputs
import proofs.«424581_j28381143892585_1_alg».proof.Proof.KernelRun
import proofs.«424581_j28381143892585_1_alg».proof.Proof.RegionValue
import proofs.«424581_j28381143892585_1_alg».proof.Proof.Entry
import proofs.«424581_j28381143892585_1_alg».proof.Proof.InRange
import proofs.«424581_j28381143892585_1_alg».proof.Proof.PreRange
import proofs.«424581_j28381143892585_1_alg».proof.Proof.RefValue
import Idealize.ShloMosaic.Adequacy
import Idealize.ShloMosaic.Init

noncomputable section

namespace Cert.Proof

open Idealize.ShloMosaic Idealize.ShloMosaic.TcCoe Idealize.SL.Sem

/-! ## The two results as functions of the launch memory -/

section Results
open Cert.KernelIdeal Cert.KernelIdeal.Gen

variable (m : (ℓ : Loc nD τ sig) → Buf (Elt Ideal) ℓ) (ρ : Dev nD → PrngReg)

/-- The class logits. -/
def clsOut (c : Dev nD) : Buf (Elt Ideal) ((c.tc : Thread nD τ).loc main_v1) :=
  Region.clsG (m ((c.tc : Thread nD τ).loc main_arg0)) (m ((c.tc : Thread nD τ).loc main_arg1))
    (shapeCast S1x64 (m ((c.tc : Thread nD τ).loc main_arg2)) shapeCasts_S64_S1x64)

/-- The word logits. -/
def wordsOut (c : Dev nD) : Buf (Elt Ideal) ((c.tc : Thread nD τ).loc main_v6) :=
  Region.wordsG
    (Host.gather gather_S8192x1024_S64x128x1_S64x128x1024_2_0_n_n_0_2_11024 (m ((c.tc : Thread nD τ).loc main_arg0))
      (Glue.wrapTok (m ((c.tc : Thread nD τ).loc main_arg5))))
    (Host.gather gather_S65536x1024_S64x1024x1_S64x1024x1024_2_0_n_n_0_2_11024 (m ((c.tc : Thread nD τ).loc main_arg3))
      (Glue.wrapWord (m ((c.tc : Thread nD τ).loc main_arg6))))
    (shapeCast S64x1x1024
      (Host.gather gather_S65536_S64x1024x1_S64x1024_n_0_n_n_0_2_1 (m ((c.tc : Thread nD τ).loc main_arg4))
        (Glue.wrapWord (m ((c.tc : Thread nD τ).loc main_arg6))))
      shapeCasts_S64x1024_S64x1x1024)

/-- The class logits' buffer after the run: the first call's result, of arrays that are still the launch contents. -/
theorem kernel_cls (c : Dev nD) : W7 m ρ c (Proc.devRef .tc main_v1) = clsOut m c := by
  refine (Entry.exit_cls m ρ c).trans ((Region.finalA (V1 m ρ) c).trans ?_)
  rw [Entry.entryA_x, Entry.entryA_w, Entry.entryA_b]
  rfl

/-- The word logits' buffer after the run: the second call's result, of the three gathered arrays — filling gathers of
    the launch contents, plain gathers when the row numbers are in range. -/
theorem kernel_words (c : Dev nD)
    (h5 : ∀ e : S64x128.Idx, -((8192 : ℕ) : ℤ) ≤ (m ((c.tc : Thread nD τ).loc main_arg5) e).toInt ∧ (m ((c.tc : Thread nD τ).loc main_arg5) e).toInt < ((8192 : ℕ) : ℤ))
    (h6 : ∀ e : S64x1024.Idx, -((65536 : ℕ) : ℤ) ≤ (m ((c.tc : Thread nD τ).loc main_arg6) e).toInt ∧ (m ((c.tc : Thread nD τ).loc main_arg6) e).toInt < ((65536 : ℕ) : ℤ)) :
    W7 m ρ c (Proc.devRef .tc main_v6) = wordsOut m c := by
  refine (Entry.exit_words m ρ c).trans ((Region.finalB (V6 m ρ) c).trans ?_)
  rw [Entry.entryB_tok, Entry.entryB_emb, Entry.entryB_bias, Glue.takeTok_eq _ _ h5, Glue.takeEmb_eq _ _ h6, Glue.takeBias_eq _ _ h6]
  rfl

/-- The kernel's run, read: both results at their functions of the launch memory, the arguments as launched. -/
theorem kernel_run (hpre : Cert.Pre_KernelIdeal m) :
    θ_run (Cert.KernelIdeal.defs (F := Ideal)) (onTc (τ := τ) (main (F := Ideal))) ⟨m, fun _ => 0, ρ⟩ (fun r => ∀ c : Dev nD,
      r.2.mem ((c.tc : Thread nD τ).loc main_v1) = clsOut m c
      ∧ r.2.mem ((c.tc : Thread nD τ).loc main_v6) = wordsOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run Cert.KernelIdeal.defs _ _).mono (fun r h c =>
      ⟨(h c).1.trans (kernel_cls m ρ c),
       (h c).2.1.trans (kernel_words m ρ c (Cert.PreRange.ranges _ _ _ _ _ _ _ (hpre c)).1 (Cert.PreRange.ranges _ _ _ _ _ _ _ (hpre c)).2),
       (h c).2.2⟩)
    (Cert.KernelIdeal.Results.run m ρ)

end Results

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs, from memories that agree on the arguments, end with the class logits and the word logits at the same
    two functions of the arguments: the kernel by its run read through its two regions, the reference by its run read one
    operation at a time. -/
theorem algebraic : Cert.algebraic_KernelIdeal_ReferenceIdeal := by
  intro m ρ m' ρ' hpre hagree
  refine ⟨fun c => clsOut m c, fun c => wordsOut m c, kernel_run m ρ hpre, ?_⟩
  refine (θ_run Cert.ReferenceIdeal.defs _ _).mono (fun r h c => ?_) (Cert.ReferenceIdeal.Value.run (F := Ideal) m' ρ')
  obtain ⟨e0, e1, e2, e3, e4, e5, e6⟩ := hagree c
  refine ⟨(h c).1.trans ?_, (h c).2.1.trans ?_, (h c).2.2⟩
  · rw [Cert.ReferenceIdeal.Read.val_main_v4_eq, Cert.ReferenceIdeal.RefValue.cls_eq, e0, e1, e2]
    rfl
  · rw [Cert.ReferenceIdeal.Read.val_main_v29_eq, Cert.ReferenceIdeal.RefValue.words_eq, e0, e3, e4, e5, e6]
    show _ = wordsOut m c
    unfold wordsOut
    rw [Cert.ReferenceIdeal.RefValue.gatherTok_eq, Cert.ReferenceIdeal.RefValue.gatherEmb_eq, Cert.ReferenceIdeal.RefValue.gatherBias_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
